-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S2048x1 : Shape := ⟨2, ![2048, 1]⟩
abbrev S2048x2048 : Shape := ⟨2, ![2048, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S2048x1 .f32) (main_arg5 : IVec S2048x2048 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S2048x1 : Shape := ⟨2, ![2048, 1]⟩
abbrev S2048x2048 : Shape := ⟨2, ![2048, 2048]⟩
abbrev S_ : Shape := ⟨0, ![]⟩
abbrev S3072x1024 : Shape := ⟨2, ![3072, 1024]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S2048x2048x1 : Shape := ⟨3, ![2048, 2048, 1]⟩
abbrev S2048x2048x2 : Shape := ⟨3, ![2048, 2048, 2]⟩
abbrev S1x512x1024 : Shape := ⟨3, ![1, 512, 1024]⟩
abbrev S1x1024x1024 : Shape := ⟨3, ![1, 1024, 1024]⟩
abbrev S512x2048 : Shape := ⟨2, ![512, 2048]⟩
abbrev S512x1 : Shape := ⟨2, ![512, 1]⟩
abbrev S512 : Shape := ⟨1, ![512]⟩

abbrev nBuf : Space → Nat
  | .hbm => 29
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1, .f32⟩
  | .hbm, ⟨5, _⟩ => ⟨S2048x2048, .i32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S3072x1024, .f32⟩
  | .hbm, ⟨10, _⟩ => ⟨S3072x1024, .bf16⟩
  | .hbm, ⟨11, _⟩ => ⟨S16384x1024, .f32⟩
  | .hbm, ⟨12, _⟩ => ⟨S16384x3072, .bf16⟩
  | .hbm, ⟨13, _⟩ => ⟨S8x2048x3072, .bf16⟩
  | .hbm, ⟨14, _⟩ => ⟨S_, .i32⟩
  | .hbm, ⟨15, _⟩ => ⟨S2048x2048, .i32⟩
  | .hbm, ⟨16, _⟩ => ⟨S2048x2048, .i1⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048x1, .i32⟩
  | .hbm, ⟨25, _⟩ => ⟨S2048x2048x1, .i32⟩
  | .hbm, ⟨26, _⟩ => ⟨S2048x2048x2, .i32⟩
  | .hbm, ⟨27, _⟩ => ⟨S2048x2048, .f32⟩
  | .hbm, ⟨28, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S512x2048, .f32⟩
  | .local _ .vmem, ⟨12, _⟩ => ⟨S1x512x1024, .f32⟩
  | .local _ .vmem, ⟨13, _⟩ => ⟨S1x512x1024, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 2], ![false, false, false]⟩

def k1_mult1 (i : grid1.Coords) : BitVec 32 :=
  let arg2 : BitVec 32 := BitVec.ofNat 32 (i 2).val
  let c1024_i32 : BitVec 32 := 1024#32
  let v11 : BitVec 32 := Scalar.muli arg2 c1024_i32
  v11
def k1_off1 (i : grid1.Coords) : Fin 2 → Nat :=
  let c0_9 : Index := 0#32
  let arg2 : BitVec 32 := BitVec.ofNat 32 (i 2).val
  let c1024_i32 : BitVec 32 := 1024#32
  let v11 : BitVec 32 := Scalar.muli arg2 c1024_i32
  let v12 : BitVec 32 := v11
  let v13 : Index := Scalar.indexCast v12
  ![0, v13.toNat]
def k1_cond2 (i : grid1.Coords) : BitVec 1 :=
  let arg2 : BitVec 32 := BitVec.ofNat 32 (i 2).val
  let c1_i32 : BitVec 32 := 1#32
  let v47 : BitVec 1 := Scalar.cmpi .eq arg2 c1_i32
  let v48 : BitVec 32 := Scalar.extui v47
  let c0_i32_27 : BitVec 32 := 0#32
  let v49 : BitVec 1 := Scalar.cmpi .ne v48 c0_i32_27
  v49

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, arg2.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S512x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S1024x1024 : S_.BroadcastsInDim S1024x1024 (![] : Fin 0 → Fin S1024x1024.rank)
  concatenates_S1024x1024_S1024x1024_S1024x1024_S3072x1024_d0 : Shape.Concatenates [S1024x1024, S1024x1024, S1024x1024] S3072x1024 0
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S3072x1024_S512x3072_1_1_0_0_n_n_wf : DotDims.WF S512x1024 S3072x1024 S512x3072 [1] [1] [0] [0] [] []
  gather_S2048x1_S2048x2048x2_S2048x2048_n_01_n_n_01_2_11_wf : GatherDims.WF S2048x1 S2048x2048x2 S2048x2048 [] [0, 1] [] [0, 1] [] 2 ![1, 1]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S512x1024.size a ≤ S512x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x3072.size a
  hwx1_0 : ∀ i : grid1.Coords, EltTy.bits .bf16 = 32 ∨ (Rect.block (s := S8x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x3072.size a
  hwx1_1 : ∀ i : grid1.Coords, EltTy.bits .bf16 = 32 ∨ (Rect.block (s := S8x2048x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x3072.size a
  hwx1_2 : ∀ i : grid1.Coords, EltTy.bits .bf16 = 32 ∨ (Rect.block (s := S8x2048x3072) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .f32 = 32 ∨ (Rect.block (s := S2048x2048) S512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S8x2048x1024.size a
  hwx1_4 : ∀ i : grid1.Coords, EltTy.bits .f32 = 32 ∨ (Rect.block (s := S8x2048x1024) S1x512x1024.size (cc1_transform_4 i) (hinb1_4 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def gather_S2048x1_S2048x2048x2_S2048x2048_n_01_n_n_01_2_11 : GatherDims S2048x1 S2048x2048x2 S2048x2048 where
  offsetDims := []
  collapsedSliceDims := [0, 1]
  operandBatchingDims := []
  startIndicesBatchingDims := []
  startIndexMap := [0, 1]
  indexVectorDim := 2
  sliceSizes := ![1, 1]
  wf := gather_S2048x1_S2048x2048x2_S2048x2048_n_01_n_n_01_2_11_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S2048x1 : Shape := ⟨2, ![2048, 1]⟩
abbrev S2048x2048 : Shape := ⟨2, ![2048, 2048]⟩
abbrev S8x2048x2048 : Shape := ⟨3, ![8, 2048, 2048]⟩
abbrev S_ : Shape := ⟨0, ![]⟩
abbrev S2048x2048x1 : Shape := ⟨3, ![2048, 2048, 1]⟩
abbrev S2048x2048x2 : Shape := ⟨3, ![2048, 2048, 2]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1, .f32⟩
  | .hbm, ⟨5, _⟩ => ⟨S2048x2048, .i32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .i32⟩
  | .hbm, ⟨14, _⟩ => ⟨S2048x2048, .i32⟩
  | .hbm, ⟨15, _⟩ => ⟨S2048x2048, .i1⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048x1, .i32⟩
  | .hbm, ⟨24, _⟩ => ⟨S2048x2048x1, .i32⟩
  | .hbm, ⟨25, _⟩ => ⟨S2048x2048x2, .i32⟩
  | .hbm, ⟨26, _⟩ => ⟨S2048x2048, .f32⟩
  | .hbm, ⟨27, _⟩ => ⟨S1x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  gather_S2048x1_S2048x2048x2_S2048x2048_n_01_n_n_01_2_11_wf : GatherDims.WF S2048x1 S2048x2048x2 S2048x2048 [] [0, 1] [] [0, 1] [] 2 ![1, 1]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def gather_S2048x1_S2048x2048x2_S2048x2048_n_01_n_n_01_2_11 : GatherDims S2048x1 S2048x2048x2 S2048x2048 where
  offsetDims := []
  collapsedSliceDims := [0, 1]
  operandBatchingDims := []
  startIndicesBatchingDims := []
  startIndexMap := [0, 1]
  indexVectorDim := 2
  sliceSizes := ![1, 1]
  wf := gather_S2048x1_S2048x2048x2_S2048x2048_n_01_n_n_01_2_11_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Ki.Proj.lean ====
/-
  The projection region: one grid axis of 32 points; at point t the body reads rows 512 t .. 512 t + 511 of the
  flattened activations (a [512, 1024] block) and the whole stacked weight matrix [3072, 1024], multiplies the block
  with the transpose of the weights, and stores the [512, 3072] product as the block of the packed result.
  This module states what the body leaves in the result window's buffer, proves the body's triple, gives the region's
  proof data and discharges its body obligation, all at a parameter V: the buffer contents the region is entered from.
-/
import proofs.«406253_j51496657879663_3_alg».proof.Proof.Gen.KernelIdeal.Launch
import proofs.«406253_j51496657879663_3_alg».proof.Proof.Gen.KernelIdeal.Skeleton
import proofs.«406253_j51496657879663_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The result window's buffer after the body: the product of the activations' block with the transposed weights,
    stored whole. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- On whole staging memrefs, the inputs' at contents x0, x1 and the result's at anything, the body runs to the
    continuation holding the inputs' as they were and the result's at out0_2 x0 x1. -/
theorem sound_kernel0 (c : Dev nD) (E : Set ℕ) (i : grid0.Coords) (arg1 : Memref sig .tc .vmem S512x1024 .f32) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point t each input's buffer at its block and the result's at
    out0_2 of the two blocks; the class invariant (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ki.Chain.lean ====
/-
  The buffer contents at each boundary of the program's four items, as a fold from the launch memory: after the first
  host stretch (the weights scaled, stacked and narrowed; the activations flattened), after the projection region (its
  result array at what the region's write-backs leave, every other buffer as entered), after the second host stretch
  (the packed projections reshaped; the relative-position bias gathered).
-/
import proofs.«406253_j51496657879663_3_alg».proof.Proof.Ki.Proj

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

end Cert.KernelIdeal.Hand

end
-- ==== Proof.Ki.AttnRuns.lean ====
/-
  The attention region: what its two control cases share. The grid is (query tile, batch, key half); the last
  coordinate decides the control: at the first key half the running maximum, denominator and numerator are reset before
  use and the result window is left alone; at the second they are carried over from the first and the result is stored.
  Here: the two conditions in closed form over the 64 points, where the result window is idle, the staging and scratch
  memrefs by name, and the region's class invariant with the three scratch buffers spelled out.
-/
import proofs.«406253_j51496657879663_3_alg».proof.Proof.Gen.KernelIdeal.Launch
import proofs.«406253_j51496657879663_3_alg».proof.Proof.Gen.KernelIdeal.Skeleton
import proofs.«406253_j51496657879663_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional (reset the running state): the key-half coordinate is 0. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (normalise and store the result): the key-half coordinate is 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the even points the result window is idle and is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At the odd points it is live. -/
theorem liveAt1_4_B : ∀ t : Fin cfg1.N, ¬cond1_0 (grid1.coords t) → cond1_1 (grid1.coords t) → cfg1.idle 4 (grid1.coords t) = false := by decide +kernel

/-! ## The memrefs by name -/

/-- One staging buffer of the result window, through which its contents are stated. -/
abbrev VO1_4 : View sig .tc .vmem S1x512x1024 .f32 := (Memref.whole cc1_stg4_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The three scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-! ## The class invariant, the scratch buffers spelled out -/

/-- What rides through this region beside the scratch buffers: the other region's staging buffers, each whole at some
    contents, and the generator register at some state; S is what the three scratch buffers hold. -/
def rideAlong (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S) ∗ (∃ r, prngReg c r))

/-- The class invariant of this region: the three scratch buffers at some contents beside what rides along. -/
theorem PhiA1_eq (c : Dev nD) :
    (Pipeline.ΦA spec1 c : sProp 𝕄)
      = rideAlong c iprop((∃ d, owns (c : Thread nD τ) scM1_0 fullShare d) ∗ (∃ d, owns (c : Thread nD τ) scM1_1 fullShare d)
          ∗ (∃ d, owns (c : Thread nD τ) scM1_2 fullShare d)) := by
  unfold Pipeline.ΦA rideAlong; rw [scopedRest1_eq]; simp only [scM1_0, scM1_1, scM1_2, owns_whole]; try rfl

end Cert.KernelIdeal.Hand

end
-- ==== Proof.Ki.AttnRunA.lean ====
/-
  The attention body at a point of the first key half: the running state is reset, then one online-softmax step is
  taken from it; the result window is not touched. The run finds the pieces each scratch buffer ends with.
-/
import proofs.«406253_j51496657879663_3_alg».proof.Proof.Ki.AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (the reset taken, the final store not taken): on whole memrefs — the four inputs at their contents, the result
    window's at contents xi4 handed back untouched, the three scratch buffers at anything — the body runs to the
    continuation holding the inputs as they were and each scratch buffer with its pieces written. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i)
    (x0 : Vec F S1x512x1024 .bf16) (x1 : Vec F S1x1024x1024 .bf16) (x2 : Vec F S1x1024x1024 .bf16) (x3 : Vec F S512x2048 .f32) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.Ki.AttnRunB.lean ====
/-
  The attention body at a point of the second key half: no reset; one online-softmax step is taken from the state the
  first half left, and the numerator divided by the denominator is stored into the result window. The run finds the
  pieces the result buffer and each scratch buffer end with.
-/
import proofs.«406253_j51496657879663_3_alg».proof.Proof.Ki.AttnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (the reset not taken, the final store taken): on whole memrefs — the four inputs at their contents, the result
    window's at anything, the three scratch buffers at what the point before left (xs0, xs1, xs2) — the body runs to the
    continuation holding the inputs as they were, the result buffer and each scratch buffer with its pieces written. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i)
    (x0 : Vec F S1x512x1024 .bf16) (x1 : Vec F S1x1024x1024 .bf16) (x2 : Vec F S1x1024x1024 .bf16) (x3 : Vec F S512x2048 .f32)
    (xs0 : Vec F S512x1 .f32) (xs1 : Vec F S512x1 .f32) (xs2 : Vec F S512x1024 .f32) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.Ki.AttnOuts.lean ====
/-
  What each control case of the attention body leaves in the result window's buffer and in the three scratch buffers:
  the pieces its run found, read back over unspecified contents; each list of pieces covers its buffer, so the
  contents read back do not depend on what was there before.
-/
import proofs.«406253_j51496657879663_3_alg».proof.Proof.Ki.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first key half (case A): nothing stored into the result window; the three scratch buffers reset and updated -/

/-- Case A stores nothing into the result window: a placeholder nothing consults (the window is idle there and
    not written back). -/
def out1_A_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S1x512x1024 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 x0 x1 x2 x3).1)

theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1.Idx) : ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S512x1.size (by sl_kernel_rfl) y
/-- The running maximum after a first-half point. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1.Idx) : ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S512x1.size (by sl_kernel_rfl) y
/-- The running denominator after a first-half point. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1024.Idx) : ∃ pc ∈ (kernelRun1_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.2.1 S512x1024.size (by sl_kernel_rfl) y
/-- The running numerator after a first-half point. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

/-! ## The second key half (case B): the scratch buffers updated from what the first half left, the result stored -/

theorem cover1_B_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S1x512x1024.Idx) : ∃ pc ∈ (kernelRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).1 S1x512x1024.size (by sl_kernel_rfl) y
/-- The result window's buffer after a second-half point. -/
def out1_B_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S1x512x1024 .f32 :=
  VO1_4.read (Elt F) (VO1_4.writes (Elt F) VO1_4.junk (kernelRun1_B c i arg3 harg3 arg4 harg4 arg5 harg5 arg6 harg6 arg7 harg7 arg8 harg8 arg9 harg9 arg10 harg10 hc0 hc1 x0 x1 x2 x3 xs0 xs1 xs2).1)

theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S512x1.size (by sl_kernel_rfl) y
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1024.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.2.1 S512x1024.size (by sl_kernel_rfl) y
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

end Cert.KernelIdeal.Hand

end
-- ==== Proof.Ki.Attn.lean ====
/-
  The attention region's proof data and body obligation, at a parameter V (the buffer contents the region is entered
  from). After each point the result window's buffer and the three scratch buffers hold what the point's control case
  leaves: at a first-half point the reset state advanced by one online-softmax step over the point's blocks; at a
  second-half point the state the point before left advanced by one step, and the normalised numerator in the result
  buffer. The invariant carries the three scratch buffers at these contents from a point to the next.
-/
import proofs.«406253_j51496657879663_3_alg».proof.Proof.Ki.AttnOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the result buffer and the scratch buffers hold after each point -/

/-- After the body at position n: (the result window's buffer, the running maximum, the running denominator, the
    running numerator). An even position is a first-half point (the state reset, then one step); an odd position a
    second-half point (one step from what position n - 1 left, and the result stored). -/
def outsAt1 (c : Dev nD) : (n : ℕ) → n < cfg1.N → Vec F S1x512x1024 .f32 × Vec F S512x1 .f32 × Vec F S512x1 .f32 × Vec F S512x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      if h1 : (n + 1) % 2 = 1 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 2 = 1 then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by omega)

/-- At a first-half point: the reset case's contents. -/
theorem outsAt1_A (c : Dev nD) (t : Fin cfg1.N) (h0 : t.val % 2 = 0) (h1 : ¬t.val % 2 = 1) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a second-half point: the carried case's contents, over what the point before left. -/
theorem outsAt1_B (c : Dev nD) (t : Fin cfg1.N) (h0 : ¬t.val % 2 = 0) (h1 : t.val % 2 = 1) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry the class invariant (every scratch buffer at anything); afterwards the three
    scratch buffers at what the point before left, beside what rides along. -/
def PhiS1 (c : Dev nD) : (n : ℕ) → n ≤ cfg1.N → sProp 𝕄
  | 0, _ => Pipeline.ΦA spec1 c
  | n + 1, hn => rideAlong c iprop(owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rideAlong c iprop(owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2)) := rfl

theorem PhiS1_pos (c : Dev nD) (n : ℕ) (h : n ≤ cfg1.N) (hz : n ≠ 0) :
    PhiS1 V c n h = rideAlong c iprop(owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2)) := by
  cases n with
  | zero => exact absurd rfl hz
  | succ n => rfl

/-! ## The proof data -/

/-- The arrays as the region finds them; after the body at point t each input's buffer at its block and the result's at
    outsAt1's first component; the invariant PhiS1; nothing owed. The three windows that read the packed projections hold
    their common array at three shares that make the whole; the bias and the result arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the parity of the point says which control case it is
    in; the invariant hands the body the scratch buffers (at anything at the very first point, else at what the point
    before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · have h1 : ¬t.val % 2 = 1 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS1_castSucc V c t, PhiS1_zero V c _ _ hz, PhiA1_eq]
      iintro ⟨HΦ, Ho, ⟨%d0, H0⟩, ⟨%d1, H1⟩, ⟨%d2, H2⟩, ⟨%d3, H3⟩, ⟨%d4, H4⟩⟩
      unfold rideAlong
      icases HΦ with ⟨⟨He0, He1, He2, He3, He4, HS0, HS1, HS2⟩, Hg⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [He0 He1 He2 He3 He4 HS0 HS1 HS2 Hg]
      · isplitr [Hg]
        swap; · iexact Hg
        isplitl [He0]; · iexact He0
        isplitl [He1]; · iexact He1
        isplitl [He2]; · iexact He2
        isplitl [He3]; · iexact He3
        isplitl [He4]; · iexact He4
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      unfold rideAlong
      icases HΦ with ⟨⟨He0, He1, He2, He3, He4, HS0, HS1, HS2⟩, Hg⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [He0 He1 He2 He3 He4 HS0 HS1 HS2 Hg]
      · isplitr [Hg]
        swap; · iexact Hg
        isplitl [He0]; · iexact He0
        isplitl [He1]; · iexact He1
        isplitl [He2]; · iexact He2
        isplitl [He3]; · iexact He3
        isplitl [He4]; · iexact He4
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1)], after1_4]
    rw [outsAt1_B V c t h0 h1]
    unfold out1_B_4 sout1_B_0 sout1_B_1 sout1_B_2; (try dsimp only)
    rw [PhiS1_castSucc V c t, PhiS1_pos V c _ _ hz]
    iintro ⟨HΦ, Ho, ⟨%d0, H0⟩, ⟨%d1, H1⟩, ⟨%d2, H2⟩, ⟨%d3, H3⟩, ⟨%d4, H4⟩⟩
    unfold rideAlong
    icases HΦ with ⟨⟨He0, He1, He2, He3, He4, HS0, HS1, HS2⟩, Hg⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [He0 He1 He2 He3 He4 HS0 HS1 HS2 Hg]
    · isplitr [Hg]
      swap; · iexact Hg
      isplitl [He0]; · iexact He0
      isplitl [He1]; · iexact He1
      isplitl [He2]; · iexact He2
      isplitl [He3]; · iexact He3
      isplitl [He4]; · iexact He4
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch buffers' named contents are
    forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rideAlong
  iintro ⟨⟨He0, He1, He2, He3, He4, HS0, HS1, HS2⟩, Hg⟩
  isplitr [Hg]
  swap; · iexact Hg
  isplitl [He0]; · iexact He0
  isplitl [He1]; · iexact He1
  isplitl [He2]; · iexact He2
  isplitl [He3]; · iexact He3
  isplitl [He4]; · iexact He4
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi1_out V c _ (by rw [Fin.val_last]; have : cfg1.N = 64 := N_1; omega)

end Cert.KernelIdeal.Hand

end
-- ==== Proof.Ki.Shares.lean ====
/-
  The attention region's arrays against the core's unscoped buffers. Three of the region's windows read ONE array (the
  packed projections), so the region holds that array as three shares that make the whole, one per window, and the bias
  and the result arrays whole. Entering the region: the unscoped buffers at contents V split into the region's arrays at
  their entry contents and the rest. Leaving it: the arrays at their final contents (the inputs as entered, the result at
  what the write-backs left) and the rest join into the unscoped buffers at contents that differ from V at the result only.
-/
import proofs.«406253_j51496657879663_3_alg».proof.Proof.Ki.Attn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's five windows: three distinct ones. -/
private theorem img1 : (Finset.univ.image (Pipeline.arrRef spec1) : Finset (Ref sig .tc)) = {main_v6, main_v17, main_v18} := by decide

/-- The unscoped buffers at any contents are the buffers behind the region's windows and the rest; the windows' arrays
    need not be distinct, only unscoped. -/
private theorem split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The buffers behind the windows, one by one: the packed projections, the bias, the result. -/
private theorem arrBufs1_eq (c : Dev nD) (W : (b : Ref sig .tc) → Buf (Elt F) ((c : Thread nD τ).loc b)) :
    (Pipeline.arrBufs spec1 c W : sProp 𝕄) = iprop((((c : Thread nD τ).loc main_v6) ↦{fullShare} W main_v6)
      ∗ (((c : Thread nD τ).loc main_v17) ↦{fullShare} W main_v17)
      ∗ (((c : Thread nD τ).loc main_v18) ↦{fullShare} W main_v18)) := by
  unfold Pipeline.arrBufs
  rw [img1, bigSep_insert (by decide), bigSep_insert (by decide), bigSep_singleton]
  rfl

private theorem share1_0 (c : Dev nD) : (dat1 V c).share 0 = fullShare.left := rfl
private theorem share1_1 (c : Dev nD) : (dat1 V c).share 1 = fullShare.right.left := rfl
private theorem share1_2 (c : Dev nD) : (dat1 V c).share 2 = fullShare.right.right := rfl
private theorem share1_3 (c : Dev nD) : (dat1 V c).share 3 = fullShare := rfl
private theorem share1_4 (c : Dev nD) : (dat1 V c).share 4 = fullShare := rfl

/-- The region's arrays window by window: every array is a whole buffer; the three windows on the packed projections
    hold it at the left half, and at the two halves of the right half, of the full share. -/
private theorem arrays1_eq (c : Dev nD) (G : (w : Fin cfg1.W) → Buf (Elt F) ((cfg1.win w).arr.view.loc (c : Thread nD τ))) :
    ((dat1 V c).arrays G : sProp 𝕄) = iprop((((c : Thread nD τ).loc main_v6) ↦{fullShare.left} G 0)
      ∗ (((c : Thread nD τ).loc main_v6) ↦{fullShare.right.left} G 1)
      ∗ (((c : Thread nD τ).loc main_v6) ↦{fullShare.right.right} G 2)
      ∗ (((c : Thread nD τ).loc main_v17) ↦{fullShare} G 3)
      ∗ (((c : Thread nD τ).loc main_v18) ↦{fullShare} G 4)) := by
  unfold Dat.arrays
  rw [bigSep_W1, (arr_whole1 0).set_eq_univ, (arr_whole1 3).set_eq_univ, (arr_whole1 4).set_eq_univ,
    share1_0, share1_1, share1_2, share1_3, share1_4]

/-- A buffer held whole is held at the left half of the full share and at the two halves of the right half. -/
private theorem pointsTo_thirds {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  (pointsTo_share (PosShare.mem_left_op_right fullShare)).trans
    (sep_congr_right (pointsTo_share (PosShare.mem_left_op_right fullShare.right)))

/-- Entering: the unscoped buffers at V are the region's arrays at their entry contents and the buffers that are no array
    of the region. -/
theorem arrays_of_bufs1 (c : Dev nD) :
    (unscopedBufs c (V c) : sProp 𝕄) ⊢ iprop((dat1 V c).arrays ((dat1 V c).arrAt · 0) ∗ Pipeline.unscopedRest spec1 c (V c)) := by
  rw [split1 c (V c), arrBufs1_eq, arrays1_eq]
  refine sep_mono ?_ .rfl
  -- every window's entry contents is V's at its array; the packed projections' buffer splits into the three shares
  exact (sep_mono_left (pointsTo_thirds (V c main_v6)).1).trans (sep_assoc.1.trans (sep_mono_right sep_assoc.1))

/-- Leaving: the arrays at their final contents and the other buffers as entered are the unscoped buffers at any contents
    V' that hold the result array's final contents at the result and V's elsewhere. -/
theorem bufs_of_arrays1 (c : Dev nD) (V' : (b : Ref sig .tc) → Buf (Elt F) ((c : Thread nD τ).loc b))
    (h18 : V' main_v18 = (dat1 V c).arrAt 4 cfg1.N) (hrest : ∀ b, b ≠ main_v18 → V' b = V c b) :
    iprop((dat1 V c).arrays ((dat1 V c).arrAt · cfg1.N) ∗ Pipeline.unscopedRest spec1 c (V c)) ⊢ (unscopedBufs c V' : sProp 𝕄) := by
  -- an input window's array is never written: its final contents is its entry contents, V's, which is V''s off the result
  have e0 : (dat1 V c).arrAt 0 cfg1.N = V' main_v6 := ((dat1 V c).arrAt_in 0 rfl _).trans (hrest main_v6 (by decide)).symm
  have e1 : (dat1 V c).arrAt 1 cfg1.N = V' main_v6 := ((dat1 V c).arrAt_in 1 rfl _).trans (hrest main_v6 (by decide)).symm
  have e2 : (dat1 V c).arrAt 2 cfg1.N = V' main_v6 := ((dat1 V c).arrAt_in 2 rfl _).trans (hrest main_v6 (by decide)).symm
  have e3 : (dat1 V c).arrAt 3 cfg1.N = V' main_v17 := ((dat1 V c).arrAt_in 3 rfl _).trans (hrest main_v17 (by decide)).symm
  -- the rest holds no array of the region, so not the result
  have hR : (Pipeline.unscopedRest spec1 c (V c) : sProp 𝕄) = Pipeline.unscopedRest spec1 c V' := by
    unfold Pipeline.unscopedRest
    refine bigSep_congr fun b hb => ?_
    have hb' : b ≠ main_v18 := fun h => (Finset.mem_sdiff.mp hb).2 (by rw [h, img1]; decide)
    rw [hrest b hb']
  rw [split1 c V', arrBufs1_eq, arrays1_eq, hR]
  refine sep_mono ?_ .rfl
  show iprop((((c : Thread nD τ).loc main_v6) ↦{fullShare.left} (dat1 V c).arrAt 0 cfg1.N)
      ∗ (((c : Thread nD τ).loc main_v6) ↦{fullShare.right.left} (dat1 V c).arrAt 1 cfg1.N)
      ∗ (((c : Thread nD τ).loc main_v6) ↦{fullShare.right.right} (dat1 V c).arrAt 2 cfg1.N)
      ∗ (((c : Thread nD τ).loc main_v17) ↦{fullShare} (dat1 V c).arrAt 3 cfg1.N)
      ∗ (((c : Thread nD τ).loc main_v18) ↦{fullShare} (dat1 V c).arrAt 4 cfg1.N)) ⊢ _
  rw [e0, e1, e2, e3, ← h18]
  -- the three shares of the packed projections' buffer join into the whole
  exact (sep_mono_right sep_assoc.2).trans (sep_assoc.2.trans (sep_mono_left (pointsTo_thirds (V' main_v6)).2))

end Cert.KernelIdeal.Hand

end
-- ==== Proof.Ki.Run.lean ====
/-
  The whole program as four items in order — a host stretch, the projection region, a host stretch, the attention region —
  launched over the buffer contents of Chain.lean: every weakly fair execution terminates, nothing faulting, with the
  result array at what the attention region's write-backs leave and every argument array as launched. Each region is
  entered from "every unscoped buffer at the boundary's contents, the generator register at some state, nothing owed" and
  left at the same with its result array updated; the attention region holds the packed projections as three shares.
-/
import proofs.«406253_j51496657879663_3_alg».proof.Proof.Ki.Chain
import proofs.«406253_j51496657879663_3_alg».proof.Proof.Ki.Shares
import proofs.«406253_j51496657879663_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The attention region's exit contents -/

/-- At the attention region's exit: its result array at what the pipeline leaves, every other buffer as entered. -/
def W4 (c : Dev nD) : Valuation τ sig (Elt F) :=
  Function.update (W3 m ρ c) (Proc.devRef .tc main_v18) ((dat1 (V3 m ρ) c).arrAt 4 cfg1.N)
theorem W4_main_v18 (c : Dev nD) : W4 m ρ c (Proc.devRef .tc main_v18) = (dat1 (V3 m ρ) c).arrAt 4 cfg1.N := by
  unfold W4; exact Function.update_self _ _ _
theorem W4_of_ne (c : Dev nD) (b : Ref sig .tc) (hb : b ≠ main_v18) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. Its arrays are sorted out of the unscoped
    buffers with the packed projections split into three shares, and joined back at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_bufs1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    rw [Pipeline.ownSems0_none]
    have h := hout1 (V3 m ρ) c
    unfold Pipeline.ΦA at h
    rw [show (pdats m ρ 1 c).Φ (Fin.last _) = (dat1 (V3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      bufs_of_arrays1 (V3 m ρ) c (V4 m ρ c) (W4_main_v18 m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final memory holds the result array at what the attention region's write-backs leave and every argument as launched. -/
theorem run_main : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Ki.Step.lean ====
/-
  One online-softmax step of the attention body as pure functions of the blocks it reads: from a query block q, a key
  block kk, a value block vv, a tile of bias and the running state (maximum m, denominator l, numerator acc) to the next
  state, and the final normalisation. They are compositions of the body's named payloads; nothing is unfolded here.
-/
import proofs.«406253_j51496657879663_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- The tile of the point's bias slab that belongs to the point's key half. -/
def biasTile (i : grid1.Coords) (x3 : Vec F S512x2048 .f32) : Vec F S512x1024 .f32 :=
  View.ld x3 (Rect.unit (s := S512x2048) (k1_off1 i) S512x1024.size (k1_off1_inb i))

/-- The reset state. -/
def mInit : Vec F S512x1 .f32 := k1_pay5 (F := F)
def lInit : Vec F S512x1 .f32 := k1_pay6 (F := F)
def accInit : Vec F S512x1024 .f32 := k1_pay7 (F := F)

/-- The next running maximum. -/
def stepM (q : Vec F S1x512x1024 .bf16) (kk : Vec F S1x1024x1024 .bf16) (bt : Vec F S512x1024 .f32) (m : Vec F S512x1 .f32) : Vec F S512x1 .f32 :=
  k1_pay3 (k1_pay10 q kk bt m)

/-- The next running denominator. -/
def stepL (q : Vec F S1x512x1024 .bf16) (kk : Vec F S1x1024x1024 .bf16) (bt : Vec F S512x1024 .f32) (m l : Vec F S512x1 .f32) : Vec F S512x1 .f32 :=
  k1_pay1 (k1_pay13 q kk bt m m l)

/-- The next running numerator. -/
def stepAcc (q : Vec F S1x512x1024 .bf16) (kk vv : Vec F S1x1024x1024 .bf16) (bt : Vec F S512x1024 .f32) (m : Vec F S512x1 .f32)
    (acc : Vec F S512x1024 .f32) : Vec F S512x1024 .f32 :=
  k1_pay2 (k1_pay8 vv) (k1_pay11 q kk bt m m) (k1_pay12 q kk bt m) acc

/-- The normalised numerator, as the result block. -/
def finOut (acc : Vec F S512x1024 .f32) (l : Vec F S512x1 .f32) : Vec F S1x512x1024 .f32 :=
  k1_pay4 acc l

end Cert.KernelIdeal.Hand

end
-- ==== Proof.Ki.Blocks.lean ====
/-
  The attention region's blocks read at an index, and its result array assembled from the blocks written back.
  Grid point t = 16 qi + 2 b + kv is query tile qi (512 rows), batch b, key half kv (1024 keys). There the query window
  holds rows 512 qi .. of batch b, columns 0..1023 of the packed projections; the key and value windows rows
  1024 kv .. of batch b, columns 1024..2047 and 2048..3071; the bias window rows 512 qi .. of the bias matrix, all 2048
  columns, of which the body takes columns 1024 kv ..; the result window's block is rows 512 qi .. of batch b. The
  result block is written back at the second-half points only, and those blocks tile the result array.
-/
import proofs.«406253_j51496657879663_3_alg».proof.Proof.Ki.Attn
import proofs.«406253_j51496657879663_3_alg».proof.Proof.Ki.Step
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The grid point of query tile qi, batch b, key half kv. -/
def pt (qi : Fin 4) (b : Fin 8) (kv : Fin 2) : Fin cfg1.N := ⟨16 * qi.val + 2 * b.val + kv.val, by
  have : cfg1.N = 64 := N_1
  omega⟩

/-- The input blocks at a point, at their literal types. -/
abbrev qblk (c : Dev nD) (t : Fin cfg1.N) : Vec F S1x512x1024 .bf16 := iblk1 V c 0 t
abbrev kblk (c : Dev nD) (t : Fin cfg1.N) : Vec F S1x1024x1024 .bf16 := iblk1 V c 1 t
abbrev vblk (c : Dev nD) (t : Fin cfg1.N) : Vec F S1x1024x1024 .bf16 := iblk1 V c 2 t
abbrev bblk (c : Dev nD) (t : Fin cfg1.N) : Vec F S512x2048 .f32 := iblk1 V c 3 t
/-- The packed projections and the bias as the region finds them, at their literal types. -/
abbrev qkvArr (c : Dev nD) : Vec F S8x2048x3072 .bf16 := V c main_v6
abbrev biasArr (c : Dev nD) : Vec F S2048x2048 .f32 := V c main_v17

/-! ## The printed index maps over the grid -/

/-- The query window's block index at point t: (batch, query tile, 0). -/
theorem qIdx : ∀ t : Fin cfg1.N, win1_0.index t (0 : Fin 3) = (t.val / 2) % 8 ∧ win1_0.index t (1 : Fin 3) = t.val / 16
    ∧ win1_0.index t (2 : Fin 3) = 0 :=
  (by decide +kernel : ∀ t : Fin grid1.N, _)

/-- The key window's: (batch, key half, 1). -/
theorem kIdx : ∀ t : Fin cfg1.N, win1_1.index t (0 : Fin 3) = (t.val / 2) % 8 ∧ win1_1.index t (1 : Fin 3) = t.val % 2
    ∧ win1_1.index t (2 : Fin 3) = 1 :=
  (by decide +kernel : ∀ t : Fin grid1.N, _)

/-- The value window's: (batch, key half, 2). -/
theorem vIdx : ∀ t : Fin cfg1.N, win1_2.index t (0 : Fin 3) = (t.val / 2) % 8 ∧ win1_2.index t (1 : Fin 3) = t.val % 2
    ∧ win1_2.index t (2 : Fin 3) = 2 :=
  (by decide +kernel : ∀ t : Fin grid1.N, _)

/-- The bias window's: (query tile, 0). -/
theorem biasIdx : ∀ t : Fin cfg1.N, win1_3.index t (0 : Fin 2) = t.val / 16 ∧ win1_3.index t (1 : Fin 2) = 0 :=
  (by decide +kernel : ∀ t : Fin grid1.N, _)

/-- The result window's: (batch, query tile, 0). -/
theorem resIdx : ∀ t : Fin cfg1.N, win1_4.index t (0 : Fin 3) = (t.val / 2) % 8 ∧ win1_4.index t (1 : Fin 3) = t.val / 16
    ∧ win1_4.index t (2 : Fin 3) = 0 :=
  (by decide +kernel : ∀ t : Fin grid1.N, _)

/-- The offsets of the body's load of the bias tile: row 0, column 1024 times the key half. -/
theorem biasOff : ∀ t : Fin cfg1.N, k1_off1 (grid1.coords t) (0 : Fin 2) = 0 ∧ k1_off1 (grid1.coords t) (1 : Fin 2) = 1024 * (t.val % 2) :=
  (by decide +kernel : ∀ t : Fin grid1.N, _)

/-- The point's position in the grid's order. -/
theorem pt_val (qi : Fin 4) (b : Fin 8) (kv : Fin 2) : (pt qi b kv).val = 16 * qi.val + 2 * b.val + kv.val := rfl

/-! ## The input blocks read at an index -/

/-- The query block: rows 512 qi .. of batch b, columns 0 .. of the packed projections. -/
theorem qblk_apply (c : Dev nD) (qi : Fin 4) (b : Fin 8) (kv : Fin 2) (p : Fin 512) (d : Fin 1024) :
    qblk V c (pt qi b kv) (ix3 (0 : Fin 1) p d)
      = qkvArr V c (ix3 b (⟨512 * qi.val + p.val, by omega⟩ : Fin 2048) (⟨d.val, by omega⟩ : Fin 3072)) := by
  obtain ⟨e0, e1, e2⟩ := qIdx (pt qi b kv)
  rw [pt_val] at e0 e1
  show iblk1 V c 0 (pt qi b kv) _ = _
  unfold iblk1
  rw [View.read_apply]
  show V c main_v6 _ = V c main_v6 _
  congr 1
  funext a
  apply Fin.ext
  match a with
  | ⟨0, _⟩ => show win1_0.index (pt qi b kv) (0 : Fin 3) * 1 + 1 * (0 : Fin 1).val = b.val; rw [e0]; have := b.isLt; have := kv.isLt; omega
  | ⟨1, _⟩ => show win1_0.index (pt qi b kv) (1 : Fin 3) * 512 + 1 * p.val = 512 * qi.val + p.val; rw [e1]; have := b.isLt; have := kv.isLt; omega
  | ⟨2, _⟩ => show win1_0.index (pt qi b kv) (2 : Fin 3) * 1024 + 1 * d.val = d.val; rw [e2]; omega

/-- The key block: rows 1024 kv .. of batch b, columns 1024 .. of the packed projections. -/
theorem kblk_apply (c : Dev nD) (qi : Fin 4) (b : Fin 8) (kv : Fin 2) (k : Fin 1024) (d : Fin 1024) :
    kblk V c (pt qi b kv) (ix3 (0 : Fin 1) k d)
      = qkvArr V c (ix3 b (⟨1024 * kv.val + k.val, by omega⟩ : Fin 2048) (⟨1024 + d.val, by omega⟩ : Fin 3072)) := by
  obtain ⟨e0, e1, e2⟩ := kIdx (pt qi b kv)
  rw [pt_val] at e0 e1
  show iblk1 V c 1 (pt qi b kv) _ = _
  unfold iblk1
  rw [View.read_apply]
  show V c main_v6 _ = V c main_v6 _
  congr 1
  funext a
  apply Fin.ext
  match a with
  | ⟨0, _⟩ => show win1_1.index (pt qi b kv) (0 : Fin 3) * 1 + 1 * (0 : Fin 1).val = b.val; rw [e0]; have := b.isLt; have := kv.isLt; omega
  | ⟨1, _⟩ => show win1_1.index (pt qi b kv) (1 : Fin 3) * 1024 + 1 * k.val = 1024 * kv.val + k.val; rw [e1]; have := b.isLt; have := kv.isLt; omega
  | ⟨2, _⟩ => show win1_1.index (pt qi b kv) (2 : Fin 3) * 1024 + 1 * d.val = 1024 + d.val; rw [e2]; omega

/-- The value block: rows 1024 kv .. of batch b, columns 2048 .. of the packed projections. -/
theorem vblk_apply (c : Dev nD) (qi : Fin 4) (b : Fin 8) (kv : Fin 2) (k : Fin 1024) (o : Fin 1024) :
    vblk V c (pt qi b kv) (ix3 (0 : Fin 1) k o)
      = qkvArr V c (ix3 b (⟨1024 * kv.val + k.val, by omega⟩ : Fin 2048) (⟨2048 + o.val, by omega⟩ : Fin 3072)) := by
  obtain ⟨e0, e1, e2⟩ := vIdx (pt qi b kv)
  rw [pt_val] at e0 e1
  show iblk1 V c 2 (pt qi b kv) _ = _
  unfold iblk1
  rw [View.read_apply]
  show V c main_v6 _ = V c main_v6 _
  congr 1
  funext a
  apply Fin.ext
  match a with
  | ⟨0, _⟩ => show win1_2.index (pt qi b kv) (0 : Fin 3) * 1 + 1 * (0 : Fin 1).val = b.val; rw [e0]; have := b.isLt; have := kv.isLt; omega
  | ⟨1, _⟩ => show win1_2.index (pt qi b kv) (1 : Fin 3) * 1024 + 1 * k.val = 1024 * kv.val + k.val; rw [e1]; have := b.isLt; have := kv.isLt; omega
  | ⟨2, _⟩ => show win1_2.index (pt qi b kv) (2 : Fin 3) * 1024 + 1 * o.val = 2048 + o.val; rw [e2]; omega

/-- The bias tile the body takes: rows 512 qi .., columns 1024 kv .. of the bias matrix (the load's offset added to the
    bias block's). -/
theorem biasTile_apply (c : Dev nD) (qi : Fin 4) (b : Fin 8) (kv : Fin 2) (p : Fin 512) (k : Fin 1024) :
    biasTile (grid1.coords (pt qi b kv)) (bblk V c (pt qi b kv)) (ix2 p k)
      = biasArr V c (ix2 (⟨512 * qi.val + p.val, by omega⟩ : Fin 2048) (⟨1024 * kv.val + k.val, by omega⟩ : Fin 2048)) := by
  obtain ⟨e0, e1⟩ := biasIdx (pt qi b kv)
  obtain ⟨o0, o1⟩ := biasOff (pt qi b kv)
  rw [pt_val] at e0 o1
  unfold biasTile
  show iblk1 V c 3 (pt qi b kv) _ = _
  unfold iblk1
  rw [View.read_apply]
  show V c main_v17 _ = V c main_v17 _
  congr 1
  funext a
  apply Fin.ext
  match a with
  | ⟨0, _⟩ =>
    show win1_3.index (pt qi b kv) (0 : Fin 2) * 512 + 1 * (k1_off1 (grid1.coords (pt qi b kv)) (0 : Fin 2) + 1 * p.val) = 512 * qi.val + p.val
    rw [e0, o0]; have := b.isLt; have := kv.isLt; omega
  | ⟨1, _⟩ =>
    show win1_3.index (pt qi b kv) (1 : Fin 2) * 2048 + 1 * (k1_off1 (grid1.coords (pt qi b kv)) (1 : Fin 2) + 1 * k.val) = 1024 * kv.val + k.val
    rw [e1, o1]; have := b.isLt; have := kv.isLt; omega

/-! ## The result array from the blocks written back -/

/-- Two write-back points with one block index are one point: the block index is (batch, query tile, 0), and a write-back
    point is a second-half point. -/
theorem resIdx_inj (t t' : Fin cfg1.N) (hf : (cfg1.win 4).flush t = true) (hf' : (cfg1.win 4).flush t' = true)
    (h : win1_4.index t = win1_4.index t') : t = t' := by
  have hN : cfg1.N = 64 := N_1
  have h1 := (flush1_4 t).mp hf
  have h1' := (flush1_4 t').mp hf'
  obtain ⟨e0, e1, _⟩ := resIdx t
  obtain ⟨e0', e1', _⟩ := resIdx t'
  have q0 := congrFun h 0
  have q1 := congrFun h 1
  rw [e0, e0'] at q0
  rw [e1, e1'] at q1
  apply Fin.ext
  have := t.isLt
  have := t'.isLt
  omega

/-- So the blocks written back share no index. -/
theorem res_disjoint : ∀ t t' : Fin cfg1.N, (cfg1.win 4).flush t = true → (cfg1.win 4).flush t' = true → t ≠ t' →
    Disjoint ((cfg1.win 4).blk t).view.set ((cfg1.win 4).blk t').view.set :=
  fun t t' hf hf' hne => (cfg1.win 4).disjoint_blk fun h => hne (resIdx_inj t t' hf hf' h)

/-- The result array after the region: row 512 qi + p of batch b is row p of what the second-half point of (qi, b) left in
    the result window's buffer. -/
theorem result_apply (c : Dev nD) (qi : Fin 4) (b : Fin 8) (p : Fin 512) (o : Fin 1024) :
    ((dat1 V c).arrAt 4 cfg1.N : Vec F S8x2048x1024 .f32) (ix3 b (⟨512 * qi.val + p.val, by omega⟩ : Fin 2048) o)
      = (outsAt1 V c (pt qi b 1).val (pt qi b 1).isLt).1 (ix3 (0 : Fin 1) p o) := by
  have hv : (pt qi b 1).val = 16 * qi.val + 2 * b.val + 1 := rfl
  have hf : (cfg1.win 4).flush (pt qi b 1) = true := (flush1_4 _).mpr (by rw [hv]; omega)
  obtain ⟨e0, e1, e2⟩ := resIdx (pt qi b 1)
  rw [hv] at e0 e1
  have hemb : (ix3 b (⟨512 * qi.val + p.val, by omega⟩ : Fin 2048) o : S8x2048x1024.Idx)
      = ((cfg1.win 4).blk (pt qi b 1)).view.emb (ix3 (0 : Fin 1) p o) := by
    funext a
    apply Fin.ext
    match a with
    | ⟨0, _⟩ => show b.val = win1_4.index (pt qi b 1) (0 : Fin 3) * 1 + 1 * (0 : Fin 1).val; rw [e0]; have := b.isLt; omega
    | ⟨1, _⟩ => show 512 * qi.val + p.val = win1_4.index (pt qi b 1) (1 : Fin 3) * 512 + 1 * p.val; rw [e1]; have := b.isLt; omega
    | ⟨2, _⟩ => show o.val = win1_4.index (pt qi b 1) (2 : Fin 3) * 1024 + 1 * o.val; rw [e2]; omega
  have h := (dat1 V c).arrAt_emb_eq_flushed 4 res_disjoint (pt qi b 1) hf (ix3 (0 : Fin 1) p o)
  refine (congrArg ((dat1 V c).arrAt 4 cfg1.N : Vec F S8x2048x1024 .f32) hemb).trans (h.trans ?_)
  show (cfg1.win 4).cut (grid1.coords (pt qi b 1)) ((dat1 V c).after 4 (pt qi b 1)) (ix3 (0 : Fin 1) p o) = _
  rw [after1_4]
  rfl

end Cert.KernelIdeal.Hand

end
-- ==== Proof.Ki.AttnPieces.lean ====
/-
  What the pieces found by the attention body's two runs are: each scratch buffer, and the result buffer, ends at the
  corresponding step function of the blocks the body read and of the state it started from (the reset state at a
  first-half point, the carried state at a second-half point).
-/
import proofs.«406253_j51496657879663_3_alg».proof.Proof.Ki.AttnOuts
import proofs.«406253_j51496657879663_3_alg».proof.Proof.Ki.Step
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, as a constant function. -/
private theorem hz2 : (![0, 0] : Fin 2 → Nat) = fun _ => 0 := funext fun a => by fin_cases a <;> rfl
/-- The zero offsets of a rank-three rectangle, as a constant function. -/
private theorem hz3 : (![0, 0, 0] : Fin 3 → Nat) = fun _ => 0 := funext fun a => by fin_cases a <;> rfl

/-- First key half: the running maximum is reset whole, read back, and stored whole again: it ends at one step from the
    reset maximum. -/
theorem sout1_A_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : sout1_A_0 c i arg3 harg3 arg4 harg4 arg5 harg5 arg6 harg6 arg7 harg7 arg8 harg8 arg9 harg9 arg10 harg10 hc0 hc1 x0 x1 x2 x3 = stepM x0 x1 (biasTile i x3) mInit := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S512x1) hz2, View.readCov_unit_zero (S := S512x1) _ hz2]
  unfold stepM mInit biasTile
  simp only [View.readAt_eq_ld, harg3.read_unread, harg4.read_unread, harg5.read_unread, harg6.read_unread, View.ld_unit_zero (S := S1x512x1024) hz3, View.ld_unit_zero (S := S1x1024x1024) hz3, View.readCov_unit_zero (S := S512x1) _ hz2, View.readCov_unit_zero (S := S512x1024) _ hz2]
  rfl

/-- First key half: the running denominator ends at one step from the reset maximum and the reset denominator. -/
theorem sout1_A_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : sout1_A_1 c i arg3 harg3 arg4 harg4 arg5 harg5 arg6 harg6 arg7 harg7 arg8 harg8 arg9 harg9 arg10 harg10 hc0 hc1 x0 x1 x2 x3 = stepL x0 x1 (biasTile i x3) mInit lInit := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S512x1) hz2]
  unfold stepL mInit lInit biasTile
  simp only [View.readAt_eq_ld, harg3.read_unread, harg4.read_unread, harg5.read_unread, harg6.read_unread, View.ld_unit_zero (S := S1x512x1024) hz3, View.ld_unit_zero (S := S1x1024x1024) hz3, View.readCov_unit_zero (S := S512x1) _ hz2, View.readCov_unit_zero (S := S512x1024) _ hz2]
  rfl

/-- First key half: the running numerator ends at one step from the reset maximum and the reset numerator. -/
theorem sout1_A_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : sout1_A_2 c i arg3 harg3 arg4 harg4 arg5 harg5 arg6 harg6 arg7 harg7 arg8 harg8 arg9 harg9 arg10 harg10 hc0 hc1 x0 x1 x2 x3 = stepAcc x0 x1 x2 (biasTile i x3) mInit accInit := by
  unfold sout1_A_2
  rw [View.read_writes_eq_canon _ _ _ (scover1_A_2 c i arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero (S := S512x1024) hz2]
  unfold stepAcc mInit accInit biasTile
  simp only [View.readAt_eq_ld, harg3.read_unread, harg4.read_unread, harg5.read_unread, harg6.read_unread, View.ld_unit_zero (S := S1x512x1024) hz3, View.ld_unit_zero (S := S1x1024x1024) hz3, View.readCov_unit_zero (S := S512x1) _ hz2, View.readCov_unit_zero (S := S512x1024) _ hz2]
  rfl

/-- Second key half: the running maximum, stored whole once, ends at one step from the carried maximum. -/
theorem sout1_B_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : sout1_B_0 c i arg3 harg3 arg4 harg4 arg5 harg5 arg6 harg6 arg7 harg7 arg8 harg8 arg9 harg9 arg10 harg10 hc0 hc1 x0 x1 x2 x3 xs0 xs1 xs2 = stepM x0 x1 (biasTile i x3) xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero (S := S512x1) hz2]
  unfold stepM biasTile
  simp only [View.readAt_eq_ld, harg3.read_unread, harg4.read_unread, harg5.read_unread, harg6.read_unread, harg8.read_unread, harg9.read_unread, harg10.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]
  rfl

/-- Second key half: the running denominator ends at one step from the carried maximum and denominator. -/
theorem sout1_B_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : sout1_B_1 c i arg3 harg3 arg4 harg4 arg5 harg5 arg6 harg6 arg7 harg7 arg8 harg8 arg9 harg9 arg10 harg10 hc0 hc1 x0 x1 x2 x3 xs0 xs1 xs2 = stepL x0 x1 (biasTile i x3) xs0 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero (S := S512x1) hz2]
  unfold stepL biasTile
  simp only [View.readAt_eq_ld, harg3.read_unread, harg4.read_unread, harg5.read_unread, harg6.read_unread, harg8.read_unread, harg9.read_unread, harg10.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]
  rfl

/-- Second key half: the running numerator ends at one step from the carried maximum and numerator. -/
theorem sout1_B_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : sout1_B_2 c i arg3 harg3 arg4 harg4 arg5 harg5 arg6 harg6 arg7 harg7 arg8 harg8 arg9 harg9 arg10 harg10 hc0 hc1 x0 x1 x2 x3 xs0 xs1 xs2 = stepAcc x0 x1 x2 (biasTile i x3) xs0 xs2 := by
  unfold sout1_B_2
  rw [View.read_writes_eq_canon _ _ _ (scover1_B_2 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero (S := S512x1024) hz2]
  unfold stepAcc biasTile
  simp only [View.readAt_eq_ld, harg3.read_unread, harg4.read_unread, harg5.read_unread, harg6.read_unread, harg8.read_unread, harg9.read_unread, harg10.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]
  rfl

/-- Second key half: the result block, stored whole once, is the updated numerator normalised by the updated denominator,
    both read back whole after their stores. -/
theorem out1_B_4_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : out1_B_4 c i arg3 harg3 arg4 harg4 arg5 harg5 arg6 harg6 arg7 harg7 arg8 harg8 arg9 harg9 arg10 harg10 hc0 hc1 x0 x1 x2 x3 xs0 xs1 xs2
    = finOut (stepAcc x0 x1 x2 (biasTile i x3) xs0 xs2) (stepL x0 x1 (biasTile i x3) xs0 xs1) := by
  unfold out1_B_4
  rw [View.read_writes_eq_canon _ _ _ (cover1_B_4 c i arg3 harg3 arg4 harg4 arg5 harg5 arg6 harg6 arg7 harg7 arg8 harg8 arg9 harg9 arg10 harg10 hc0 hc1 x0 x1 x2 x3 xs0 xs1 xs2)]
  unfold kernelRun1_B
  dsimp only
  sl_unfold_words
  rw [View.canon_unit_zero (S := S1x512x1024) hz3]
  unfold finOut stepAcc stepL biasTile
  simp only [View.readAt_eq_ld, harg3.read_unread, harg4.read_unread, harg5.read_unread, harg6.read_unread, harg8.read_unread, harg9.read_unread, harg10.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]
  rfl

end Cert.KernelIdeal.Hand

end
-- ==== Proof.LibSoftmaxMerge.lean ====
/-
  Softmax merge algebra on the extended reals.

  A softmax over a finite key set can be computed blockwise: each block S carries its
  maximum (top σ S), its shifted denominator den σ S (top σ S) = ∑_{j∈S} exp (σ j - top σ S)
  and its shifted numerator num σ ν S (top σ S) = ∑_{j∈S} exp (σ j - top σ S) * ν j.
  Two blocks are joined by rescaling each to the common maximum; this file proves that the
  joined state is the state of the union, for real-valued scores and values, with the
  extended-real exponential Ideal.exp (exp ⊥ = 0, exp ⊤ = ⊤, exp ↑r = ↑(Real.exp r)).

  Method throughout: choose real witnesses for the scores and values, prove the identity in
  ℝ (Real.exp_add, distributivity of finite sums), and push the coercion ℝ → EReal
  through sums, products and differences.
-/
import Idealize.ShloMosaic.PureOps.Ideal
import Mathlib.Data.EReal.Basic
import Mathlib.Data.EReal.Operations
import Mathlib.Analysis.SpecialFunctions.Exp
import Mathlib.Algebra.BigOperators.Group.Finset.Basic
import Mathlib.Algebra.BigOperators.Ring.Finset
import Mathlib.Data.Finset.Lattice.Fold

open Idealize.ShloMosaic
open scoped BigOperators

namespace Cert.Hand.SoftmaxMerge

/-! ### The three quantities of a block -/

/-- The maximum score of a block (⊥ for the empty block). -/
noncomputable def top {J : Type*} (σ : J → EReal) (S : Finset J) : EReal := S.sup σ

/-- The denominator of a block, shifted by M: ∑_{j∈S} exp (σ j - M). -/
noncomputable def den {J : Type*} (σ : J → EReal) (S : Finset J) (M : EReal) : EReal :=
  ∑ j ∈ S, Ideal.exp (σ j - M)

/-- The numerator of a block, shifted by M: ∑_{j∈S} exp (σ j - M) * ν j. -/
noncomputable def num {J : Type*} (σ ν : J → EReal) (S : Finset J) (M : EReal) : EReal :=
  ∑ j ∈ S, Ideal.exp (σ j - M) * ν j

/-! ### Coercion helpers -/

/-- The coercion ℝ → EReal commutes with finite sums. -/
theorem coe_sum {J : Type*} [DecidableEq J] (S : Finset J) (f : J → ℝ) :
    ((∑ j ∈ S, f j : ℝ) : EReal) = ∑ j ∈ S, (f j : EReal) := by
  induction S using Finset.induction_on with
  | empty => simp
  | insert a s ha ih => rw [Finset.sum_insert ha, Finset.sum_insert ha, EReal.coe_add, ih]

/-- The coercion ℝ → EReal commutes with max. -/
theorem coe_max (a b : ℝ) : ((max a b : ℝ) : EReal) = max (a : EReal) (b : EReal) :=
  EReal.coe_strictMono.monotone.map_max

/-- exp of a difference of two reals, at the extended reals. -/
theorem exp_coe_sub (a b : ℝ) :
    Ideal.exp ((a : EReal) - (b : EReal)) = ((Real.exp (a - b) : ℝ) : EReal) := by
  rw [← EReal.coe_sub, Ideal.exp_coe]

/-- A real-valued family is the coercion of a real family. -/
theorem exists_real_fun {J : Type*} (σ : J → EReal) (hσ : ∀ j, ∃ r : ℝ, σ j = (r : EReal)) :
    ∃ s : J → ℝ, σ = fun j => (s j : EReal) := by
  choose s hs using hσ
  exact ⟨s, funext hs⟩

/-- The denominator of a real-valued block at a real shift, as a real sum. -/
theorem den_coe {J : Type*} [DecidableEq J] (s : J → ℝ) (S : Finset J) (M : ℝ) :
    den (fun j => (s j : EReal)) S (M : EReal)
      = ((∑ j ∈ S, Real.exp (s j - M) : ℝ) : EReal) := by
  unfold den
  rw [coe_sum]
  exact Finset.sum_congr rfl (fun j _ => exp_coe_sub (s j) M)

/-- The numerator of a real-valued block at a real shift, as a real sum. -/
theorem num_coe {J : Type*} [DecidableEq J] (s v : J → ℝ) (S : Finset J) (M : ℝ) :
    num (fun j => (s j : EReal)) (fun j => (v j : EReal)) S (M : EReal)
      = ((∑ j ∈ S, Real.exp (s j - M) * v j : ℝ) : EReal) := by
  unfold num
  rw [coe_sum]
  refine Finset.sum_congr rfl (fun j _ => ?_)
  rw [exp_coe_sub, ← EReal.coe_mul]

/-! ### (A) The maximum -/

/-- The maximum of a nonempty real-valued block is real. -/
theorem top_real {J : Type*} [DecidableEq J] (σ : J → EReal)
    (hσ : ∀ j, ∃ r : ℝ, σ j = (r : EReal)) (S : Finset J) (hS : S.Nonempty) :
    ∃ r : ℝ, top σ S = (r : EReal) := by
  obtain ⟨i, _, hi⟩ := Finset.exists_mem_eq_sup S hS σ
  obtain ⟨r, hr⟩ := hσ i
  exact ⟨r, by rw [top, hi, hr]⟩

/-- The maximum of a union is the larger of the two maxima. -/
theorem top_union {J : Type*} [DecidableEq J] (σ : J → EReal) (S T : Finset J) :
    top σ (S ∪ T) = max (top σ S) (top σ T) := by
  unfold top
  exact Finset.sup_union

/-- The maximum of the empty block is ⊥. -/
theorem top_empty {J : Type*} (σ : J → EReal) : top σ (∅ : Finset J) = ⊥ := by
  unfold top
  exact Finset.sup_empty

/-! ### (B) Denominator and numerator are real at a real shift -/

/-- The denominator of a real-valued block at a real shift is real. -/
theorem den_real {J : Type*} [DecidableEq J] (σ : J → EReal)
    (hσ : ∀ j, ∃ r : ℝ, σ j = (r : EReal)) (S : Finset J) (M : ℝ) :
    ∃ r : ℝ, den σ S (M : EReal) = (r : EReal) := by
  obtain ⟨s, rfl⟩ := exists_real_fun σ hσ
  exact ⟨_, den_coe s S M⟩

/-- The numerator of a real-valued block at a real shift is real. -/
theorem num_real {J : Type*} [DecidableEq J] (σ ν : J → EReal)
    (hσ : ∀ j, ∃ r : ℝ, σ j = (r : EReal)) (hν : ∀ j, ∃ r : ℝ, ν j = (r : EReal))
    (S : Finset J) (M : ℝ) :
    ∃ r : ℝ, num σ ν S (M : EReal) = (r : EReal) := by
  obtain ⟨s, rfl⟩ := exists_real_fun σ hσ
  obtain ⟨v, rfl⟩ := exists_real_fun ν hν
  exact ⟨_, num_coe s v S M⟩

/-! ### Rescaling a block and splitting a union -/

/-- Rescaling a denominator from the real shift a to the real shift c:
    (∑ exp (σ j - a)) * exp (a - c) = ∑ exp (σ j - c). -/
theorem den_rescale {J : Type*} [DecidableEq J] (σ : J → EReal)
    (hσ : ∀ j, ∃ r : ℝ, σ j = (r : EReal)) (S : Finset J) (a c : ℝ) :
    den σ S (a : EReal) * Ideal.exp ((a : EReal) - (c : EReal)) = den σ S (c : EReal) := by
  obtain ⟨s, rfl⟩ := exists_real_fun σ hσ
  rw [den_coe, den_coe, exp_coe_sub, ← EReal.coe_mul, Finset.sum_mul]
  congr 1
  refine Finset.sum_congr rfl (fun j _ => ?_)
  rw [← Real.exp_add]
  congr 1
  ring

/-- Rescaling a numerator from the real shift a to the real shift c:
    (∑ exp (σ j - a) * ν j) * exp (a - c) = ∑ exp (σ j - c) * ν j. -/
theorem num_rescale {J : Type*} [DecidableEq J] (σ ν : J → EReal)
    (hσ : ∀ j, ∃ r : ℝ, σ j = (r : EReal)) (hν : ∀ j, ∃ r : ℝ, ν j = (r : EReal))
    (S : Finset J) (a c : ℝ) :
    num σ ν S (a : EReal) * Ideal.exp ((a : EReal) - (c : EReal)) = num σ ν S (c : EReal) := by
  obtain ⟨s, rfl⟩ := exists_real_fun σ hσ
  obtain ⟨v, rfl⟩ := exists_real_fun ν hν
  rw [num_coe, num_coe, exp_coe_sub, ← EReal.coe_mul, Finset.sum_mul]
  congr 1
  refine Finset.sum_congr rfl (fun j _ => ?_)
  have h : Real.exp (s j - c) = Real.exp (s j - a) * Real.exp (a - c) := by
    rw [← Real.exp_add]
    congr 1
    ring
  rw [h]
  ring

/-- The denominator of a disjoint union, at one common shift, is the sum of the two. -/
theorem den_union {J : Type*} [DecidableEq J] (σ : J → EReal) (S T : Finset J)
    (hST : Disjoint S T) (M : EReal) :
    den σ S M + den σ T M = den σ (S ∪ T) M := by
  unfold den
  exact (Finset.sum_union hST).symm

/-- The numerator of a disjoint union, at one common shift, is the sum of the two. -/
theorem num_union {J : Type*} [DecidableEq J] (σ ν : J → EReal) (S T : Finset J)
    (hST : Disjoint S T) (M : EReal) :
    num σ ν S M + num σ ν T M = num σ ν (S ∪ T) M := by
  unfold num
  exact (Finset.sum_union hST).symm

/-- The denominator of the empty block is 0. -/
theorem den_empty {J : Type*} (σ : J → EReal) (M : EReal) : den σ (∅ : Finset J) M = 0 := by
  unfold den
  exact Finset.sum_empty

/-- The numerator of the empty block is 0. -/
theorem num_empty {J : Type*} (σ ν : J → EReal) (M : EReal) :
    num σ ν (∅ : Finset J) M = 0 := by
  unfold num
  exact Finset.sum_empty

/-! ### (C) Merge of two partial results -/

/-- Tree merge of denominators: each block rescaled from its own maximum to the common
    maximum, then added, is the denominator of the union at the common maximum. -/
theorem den_merge {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (top σ T) * Ideal.exp (top σ T - max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_rescale σ hσ T, den_union σ S T hST]

/-- Tree merge of numerators: each block rescaled from its own maximum to the common
    maximum, then added, is the numerator of the union at the common maximum. -/
theorem num_merge {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (top σ T) * Ideal.exp (top σ T - max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_rescale σ ν hσ hν T,
    num_union σ ν S T hST]

/-- Merge of denominators at arbitrary real shifts a, b (one per block) and c (common). -/
theorem den_merge_at {J : Type*} [DecidableEq J] (σ : J → EReal)
    (hσ : ∀ j, ∃ r : ℝ, σ j = (r : EReal)) (S T : Finset J) (hST : Disjoint S T)
    (a b c : ℝ) :
    den σ S (a : EReal) * Ideal.exp ((a : EReal) - (c : EReal))
        + den σ T (b : EReal) * Ideal.exp ((b : EReal) - (c : EReal))
      = den σ (S ∪ T) (c : EReal) := by
  rw [den_rescale σ hσ S, den_rescale σ hσ T, den_union σ S T hST]

/-- Merge of numerators at arbitrary real shifts a, b (one per block) and c (common). -/
theorem num_merge_at {J : Type*} [DecidableEq J] (σ ν : J → EReal)
    (hσ : ∀ j, ∃ r : ℝ, σ j = (r : EReal)) (hν : ∀ j, ∃ r : ℝ, ν j = (r : EReal))
    (S T : Finset J) (hST : Disjoint S T) (a b c : ℝ) :
    num σ ν S (a : EReal) * Ideal.exp ((a : EReal) - (c : EReal))
        + num σ ν T (b : EReal) * Ideal.exp ((b : EReal) - (c : EReal))
      = num σ ν (S ∪ T) (c : EReal) := by
  rw [num_rescale σ ν hσ hν S, num_rescale σ ν hσ hν T, num_union σ ν S T hST]

/-! ### (D) One step of the sequential pass -/

/-- Online step for the denominator: the running state rescaled from the old maximum to the
    new one, plus the new block taken directly at the new maximum. -/
theorem den_online {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_union σ S T hST]

/-- Online step for the numerator: the running state rescaled from the old maximum to the
    new one, plus the new block taken directly at the new maximum. -/
theorem num_online {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_union σ ν S T hST]

/-! ### (E) The first step, from the empty state (⊥, 0, 0) -/

/-- From the empty state the new maximum is the block's own maximum. -/
theorem top_first {J : Type*} (σ : J → EReal) (T : Finset J) :
    max (⊥ : EReal) (top σ T) = top σ T :=
  max_bot_left _

/-- In the extended reals ⊥ - m = ⊥, so the rescaling factor of the empty state is
    exp ⊥ = 0. -/
theorem exp_bot_sub (m : EReal) : Ideal.exp ((⊥ : EReal) - m) = 0 := by
  rw [EReal.bot_sub, Ideal.exp_bot]

/-- First online step for the denominator: the empty state contributes nothing. -/
theorem den_first {J : Type*} (σ : J → EReal) (T : Finset J) :
    (0 : EReal) * Ideal.exp ((⊥ : EReal) - max (⊥ : EReal) (top σ T))
        + den σ T (max (⊥ : EReal) (top σ T))
      = den σ T (top σ T) := by
  rw [top_first, zero_mul, zero_add]

/-- First online step for the numerator: the empty state contributes nothing. -/
theorem num_first {J : Type*} (σ ν : J → EReal) (T : Finset J) :
    (0 : EReal) * Ideal.exp ((⊥ : EReal) - max (⊥ : EReal) (top σ T))
        + num σ ν T (max (⊥ : EReal) (top σ T))
      = num σ ν T (top σ T) := by
  rw [top_first, zero_mul, zero_add]

/-! ### (F) Pulling a real scale out of a contraction -/

/-- A real factor on the left operand of a finite contraction comes out of the sum
    (over any finite index set). -/
theorem scale_out_finset {D : Type*} [DecidableEq D] (a b : D → EReal)
    (ha : ∀ d, ∃ r : ℝ, a d = (r : EReal)) (hb : ∀ d, ∃ r : ℝ, b d = (r : EReal))
    (S : Finset D) (κ : ℝ) :
    ∑ d ∈ S, (a d * (κ : EReal)) * b d = (∑ d ∈ S, a d * b d) * (κ : EReal) := by
  obtain ⟨x, rfl⟩ := exists_real_fun a ha
  obtain ⟨y, rfl⟩ := exists_real_fun b hb
  have h1 : ∀ d, ((x d : EReal) * (κ : EReal)) * (y d : EReal) = ((x d * κ * y d : ℝ) : EReal) := by
    intro d
    rw [EReal.coe_mul, EReal.coe_mul]
  have h2 : ∀ d, (x d : EReal) * (y d : EReal) = ((x d * y d : ℝ) : EReal) := by
    intro d
    rw [EReal.coe_mul]
  rw [Finset.sum_congr rfl (fun d _ => h1 d), Finset.sum_congr rfl (fun d _ => h2 d),
    ← coe_sum, ← coe_sum, ← EReal.coe_mul, Finset.sum_mul]
  congr 1
  refine Finset.sum_congr rfl (fun d _ => ?_)
  ring

/-- A real factor on the left operand of a contraction over a finite type comes out of
    the sum. -/
theorem scale_out {D : Type*} [Fintype D] [DecidableEq D] (a b : D → EReal)
    (ha : ∀ d, ∃ r : ℝ, a d = (r : EReal)) (hb : ∀ d, ∃ r : ℝ, b d = (r : EReal)) (κ : ℝ) :
    ∑ d, (a d * (κ : EReal)) * b d = (∑ d, a d * b d) * (κ : EReal) :=
  scale_out_finset a b ha hb Finset.univ κ

/-- The same with the scale given as a real-valued extended real. -/
theorem scale_out' {D : Type*} [Fintype D] [DecidableEq D] (a b : D → EReal)
    (ha : ∀ d, ∃ r : ℝ, a d = (r : EReal)) (hb : ∀ d, ∃ r : ℝ, b d = (r : EReal))
    (κ : EReal) (hκ : ∃ r : ℝ, κ = (r : EReal)) :
    ∑ d, (a d * κ) * b d = (∑ d, a d * b d) * κ := by
  obtain ⟨k, rfl⟩ := hκ
  exact scale_out a b ha hb k

/-- The same with the real factor on the right operand. -/
theorem scale_out_right {D : Type*} [Fintype D] [DecidableEq D] (a b : D → EReal)
    (ha : ∀ d, ∃ r : ℝ, a d = (r : EReal)) (hb : ∀ d, ∃ r : ℝ, b d = (r : EReal)) (κ : ℝ) :
    ∑ d, a d * (b d * (κ : EReal)) = (∑ d, a d * b d) * (κ : EReal) := by
  rw [← scale_out a b ha hb κ]
  refine Finset.sum_congr rfl (fun d _ => ?_)
  rw [← mul_assoc, mul_right_comm]

end Cert.Hand.SoftmaxMerge

/-- info: 'Cert.Hand.SoftmaxMerge.den_merge' depends on axioms: [propext, Classical.choice, Quot.sound] -/
#guard_msgs in #print axioms Cert.Hand.SoftmaxMerge.den_merge

/-- info: 'Cert.Hand.SoftmaxMerge.num_merge' depends on axioms: [propext, Classical.choice, Quot.sound] -/
#guard_msgs in #print axioms Cert.Hand.SoftmaxMerge.num_merge

/-- info: 'Cert.Hand.SoftmaxMerge.den_online' depends on axioms: [propext, Classical.choice, Quot.sound] -/
#guard_msgs in #print axioms Cert.Hand.SoftmaxMerge.den_online

/-- info: 'Cert.Hand.SoftmaxMerge.num_online' depends on axioms: [propext, Classical.choice, Quot.sound] -/
#guard_msgs in #print axioms Cert.Hand.SoftmaxMerge.num_online

/-- info: 'Cert.Hand.SoftmaxMerge.den_first' depends on axioms: [propext, Classical.choice, Quot.sound] -/
#guard_msgs in #print axioms Cert.Hand.SoftmaxMerge.den_first

/-- info: 'Cert.Hand.SoftmaxMerge.num_first' depends on axioms: [propext, Classical.choice, Quot.sound] -/
#guard_msgs in #print axioms Cert.Hand.SoftmaxMerge.num_first

/-- info: 'Cert.Hand.SoftmaxMerge.scale_out' depends on axioms: [propext, Classical.choice, Quot.sound] -/
#guard_msgs in #print axioms Cert.Hand.SoftmaxMerge.scale_out

/-- info: 'Cert.Hand.SoftmaxMerge.scale_out_right' depends on axioms: [propext, Classical.choice, Quot.sound] -/
#guard_msgs in #print axioms Cert.Hand.SoftmaxMerge.scale_out_right

/-- info: 'Cert.Hand.SoftmaxMerge.den_merge_at' depends on axioms: [propext, Classical.choice, Quot.sound] -/
#guard_msgs in #print axioms Cert.Hand.SoftmaxMerge.den_merge_at

/-- info: 'Cert.Hand.SoftmaxMerge.num_merge_at' depends on axioms: [propext, Classical.choice, Quot.sound] -/
#guard_msgs in #print axioms Cert.Hand.SoftmaxMerge.num_merge_at
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.FlashMath.lean ====
/-
  One row of attention computed in two halves of the key axis, against the same row computed at once.

  For scores s : Fin 2048 → EReal and values v : Fin 2048 → EReal (one output column), all real:
  the two-pass running computation keeps a maximum m, a denominator l and a numerator acc; it starts from
  (⊥, 0, 0), takes the keys 0..1023, rescales by exp (m_old - m_new), takes the keys 1024..2047, and divides.
  The one-pass computation subtracts the maximum over all keys, exponentiates, normalises by the sum and
  contracts with the values. Both are the same real number.

  Also: a real factor κ on one operand of a nested contraction comes out of the whole sum (the kernel scales the
  query weights by 1/32 where the reference divides the score by 32).
-/
import proofs.«406253_j51496657879663_3_alg».proof.Proof.LibSoftmaxMerge
import proofs.«406253_j51496657879663_3_alg».proof.Proof.LibERealSage
import Mathlib.Data.EReal.Basic
import Mathlib.Data.Finset.Image
import Mathlib.Data.Finset.Lattice.Fold
import Mathlib.Algebra.BigOperators.Group.Finset.Basic
import Mathlib.Algebra.BigOperators.Ring.Finset
import Mathlib.Algebra.Order.BigOperators.Group.Finset
import Mathlib.Analysis.SpecialFunctions.Exp

noncomputable section

open Idealize.ShloMosaic
open scoped BigOperators

namespace Cert.Hand.Flash

open Cert.LibERealSage

/-- Key j of the first half as a key of the whole axis. -/
def lo (k : Fin 1024) : Fin 2048 := ⟨k.val, by omega⟩
/-- Key j of the second half as a key of the whole axis. -/
def hi (k : Fin 1024) : Fin 2048 := ⟨1024 + k.val, by omega⟩

/-- The maximum of a finite family, from ⊥. -/
def rowMax {n : ℕ} (σ : Fin n → EReal) : EReal := (Finset.univ : Finset (Fin n)).fold max ⊥ σ

/-! ### The two halves of the key axis, as finite sets of keys -/

/-- The keys of the first half. -/
private def loHalf : Finset (Fin 2048) := Finset.univ.image lo
/-- The keys of the second half. -/
private def hiHalf : Finset (Fin 2048) := Finset.univ.image hi

private theorem lo_injective : Function.Injective lo := by
  intro a b h
  have h' := congrArg Fin.val h
  simp only [lo] at h'
  exact Fin.ext h'

private theorem hi_injective : Function.Injective hi := by
  intro a b h
  have h' := congrArg Fin.val h
  simp only [hi] at h'
  exact Fin.ext (by omega)

/-- Every key lies in one of the two halves. -/
private theorem halves_union : loHalf ∪ hiHalf = Finset.univ := by
  ext j
  simp only [loHalf, hiHalf, Finset.mem_union, Finset.mem_image, Finset.mem_univ, true_and, iff_true]
  by_cases h : j.val < 1024
  · exact Or.inl ⟨⟨j.val, h⟩, Fin.ext rfl⟩
  · refine Or.inr ⟨⟨j.val - 1024, by omega⟩, Fin.ext ?_⟩
    simp only [hi]
    omega

/-- No key lies in both halves. -/
private theorem halves_disjoint : Disjoint loHalf hiHalf := by
  rw [Finset.disjoint_left]
  intro j hj hj'
  simp only [loHalf, hiHalf, Finset.mem_image, Finset.mem_univ, true_and] at hj hj'
  obtain ⟨a, rfl⟩ := hj
  obtain ⟨b, hb⟩ := hj'
  have h' := congrArg Fin.val hb
  simp only [lo, hi] at h'
  omega

private theorem loHalf_nonempty : loHalf.Nonempty :=
  ⟨lo ⟨0, by omega⟩, Finset.mem_image_of_mem lo (Finset.mem_univ _)⟩

private theorem hiHalf_nonempty : hiHalf.Nonempty :=
  ⟨hi ⟨0, by omega⟩, Finset.mem_image_of_mem hi (Finset.mem_univ _)⟩

/-- The running maximum from ⊥ over a finite set is the supremum of the family over that set. -/
private theorem fold_max_eq_sup {J : Type*} [DecidableEq J] (σ : J → EReal) (S : Finset J) :
    S.fold max ⊥ σ = S.sup σ := by
  induction S using Finset.induction_on with
  | empty => simp
  | insert a t ha ih => rw [Finset.fold_insert ha, Finset.sup_insert, ih]

/-- The maximum of a family from ⊥ is its supremum. -/
private theorem rowMax_eq_top {n : ℕ} (σ : Fin n → EReal) :
    rowMax σ = SoftmaxMerge.top σ Finset.univ :=
  fold_max_eq_sup σ Finset.univ

/-- A sum over the first half, as a sum over its keys. -/
private theorem sum_lo (f : Fin 2048 → EReal) : ∑ k : Fin 1024, f (lo k) = ∑ j ∈ loHalf, f j := by
  unfold loHalf
  rw [Finset.sum_image (fun a _ b _ h => lo_injective h)]

/-- A sum over the second half, as a sum over its keys. -/
private theorem sum_hi (f : Fin 2048 → EReal) : ∑ k : Fin 1024, f (hi k) = ∑ j ∈ hiHalf, f j := by
  unfold hiHalf
  rw [Finset.sum_image (fun a _ b _ h => hi_injective h)]

/-- The maximum over the first half is the maximum of its block of keys. -/
private theorem rowMax_lo (σ : Fin 2048 → EReal) :
    rowMax (fun k : Fin 1024 => σ (lo k)) = SoftmaxMerge.top σ loHalf := by
  rw [rowMax_eq_top]
  unfold SoftmaxMerge.top loHalf
  rw [Finset.sup_image]
  rfl

/-- The maximum over the second half is the maximum of its block of keys. -/
private theorem rowMax_hi (σ : Fin 2048 → EReal) :
    rowMax (fun k : Fin 1024 => σ (hi k)) = SoftmaxMerge.top σ hiHalf := by
  rw [rowMax_eq_top]
  unfold SoftmaxMerge.top hiHalf
  rw [Finset.sup_image]
  rfl

section Row

variable (s v : Fin 2048 → EReal)

/-- After the first half, from the empty state (⊥, 0, 0). -/
def m0 : EReal := max ⊥ (rowMax fun k : Fin 1024 => s (lo k))
def a0 : EReal := Ideal.exp (⊥ - m0 s)
def l0 : EReal := a0 s * 0 + ∑ k : Fin 1024, Ideal.exp (s (lo k) - m0 s)
def acc0 : EReal := a0 s * 0 + ∑ k : Fin 1024, Ideal.exp (s (lo k) - m0 s) * v (lo k)
/-- After the second half. -/
def m1 : EReal := max (m0 s) (rowMax fun k : Fin 1024 => s (hi k))
def a1 : EReal := Ideal.exp (m0 s - m1 s)
def l1 : EReal := a1 s * l0 s + ∑ k : Fin 1024, Ideal.exp (s (hi k) - m1 s)
def acc1 : EReal := a1 s * acc0 s v + ∑ k : Fin 1024, Ideal.exp (s (hi k) - m1 s) * v (hi k)
/-- The two-pass result. -/
def flashOut : EReal := Ideal.div (acc1 s v) (l1 s)

/-- The one-pass computation. -/
def refMax : EReal := max ⊥ (rowMax s)
def refDen : EReal := 0 + ∑ j : Fin 2048, Ideal.exp (s j - refMax s)
def refOut : EReal := ∑ j : Fin 2048, Ideal.div (Ideal.exp (s j - refMax s)) (refDen s) * v j

/-! ### Closed forms of the running state -/

/-- The first maximum is the maximum of the first block. -/
private theorem m0_eq : m0 s = SoftmaxMerge.top s loHalf := by
  rw [m0, rowMax_lo, max_bot_left]

/-- The empty state is rescaled by exp ⊥ = 0. -/
private theorem a0_eq : a0 s = 0 := by
  rw [a0, EReal.bot_sub, Ideal.exp_bot]

/-- After the first half the denominator is that of the first block at its own maximum. -/
private theorem l0_eq : l0 s = SoftmaxMerge.den s loHalf (SoftmaxMerge.top s loHalf) := by
  rw [l0, a0_eq, zero_mul, zero_add, m0_eq, sum_lo (fun j => Ideal.exp (s j - SoftmaxMerge.top s loHalf))]
  rfl

/-- After the first half the numerator is that of the first block at its own maximum. -/
private theorem acc0_eq : acc0 s v = SoftmaxMerge.num s v loHalf (SoftmaxMerge.top s loHalf) := by
  rw [acc0, a0_eq, zero_mul, zero_add, m0_eq,
    sum_lo (fun j => Ideal.exp (s j - SoftmaxMerge.top s loHalf) * v j)]
  rfl

/-- The second maximum is the maximum over all keys. -/
private theorem m1_eq : m1 s = max (SoftmaxMerge.top s loHalf) (SoftmaxMerge.top s hiHalf) := by
  rw [m1, m0_eq, rowMax_hi]

/-- The maximum over all keys is the larger of the two block maxima. -/
private theorem top_univ :
    SoftmaxMerge.top s Finset.univ = max (SoftmaxMerge.top s loHalf) (SoftmaxMerge.top s hiHalf) := by
  rw [← SoftmaxMerge.top_union, halves_union]

/-- After the second half the denominator is the whole denominator at the whole maximum. -/
private theorem l1_eq (hs : ∀ j, IsReal (s j)) :
    l1 s = SoftmaxMerge.den s Finset.univ (SoftmaxMerge.top s Finset.univ) := by
  have h2 : ∑ k : Fin 1024, Ideal.exp (s (hi k) - m1 s)
      = SoftmaxMerge.den s hiHalf (max (SoftmaxMerge.top s loHalf) (SoftmaxMerge.top s hiHalf)) := by
    rw [m1_eq, sum_hi (fun j => Ideal.exp (s j
      - max (SoftmaxMerge.top s loHalf) (SoftmaxMerge.top s hiHalf)))]
    rfl
  rw [l1, h2, a1, l0_eq, m1_eq, m0_eq, mul_comm,
    SoftmaxMerge.den_online s hs loHalf hiHalf loHalf_nonempty hiHalf_nonempty halves_disjoint,
    halves_union, top_univ]

/-- After the second half the numerator is the whole numerator at the whole maximum. -/
private theorem acc1_eq (hs : ∀ j, IsReal (s j)) (hv : ∀ j, IsReal (v j)) :
    acc1 s v = SoftmaxMerge.num s v Finset.univ (SoftmaxMerge.top s Finset.univ) := by
  have h2 : ∑ k : Fin 1024, Ideal.exp (s (hi k) - m1 s) * v (hi k)
      = SoftmaxMerge.num s v hiHalf (max (SoftmaxMerge.top s loHalf) (SoftmaxMerge.top s hiHalf)) := by
    rw [m1_eq, sum_hi (fun j => Ideal.exp (s j
      - max (SoftmaxMerge.top s loHalf) (SoftmaxMerge.top s hiHalf)) * v j)]
    rfl
  rw [acc1, h2, a1, acc0_eq, m1_eq, m0_eq, mul_comm,
    SoftmaxMerge.num_online s v hs hv loHalf hiHalf loHalf_nonempty hiHalf_nonempty halves_disjoint,
    halves_union, top_univ]

/-- The one-pass maximum is the maximum over all keys. -/
private theorem refMax_eq : refMax s = SoftmaxMerge.top s Finset.univ := by
  rw [refMax, rowMax_eq_top, max_bot_left]

/-- The one-pass denominator is the whole denominator at the whole maximum. -/
private theorem refDen_eq :
    refDen s = SoftmaxMerge.den s Finset.univ (SoftmaxMerge.top s Finset.univ) := by
  rw [refDen, zero_add, refMax_eq]
  rfl

/-- The two computations agree on real scores and values. -/
theorem flash_eq_ref (hs : ∀ j, IsReal (s j)) (hv : ∀ j, IsReal (v j)) : flashOut s v = refOut s v := by
  -- both sides in terms of the whole numerator, the whole denominator and the whole maximum c
  obtain ⟨c, hc⟩ := SoftmaxMerge.top_real s hs Finset.univ Finset.univ_nonempty
  unfold flashOut refOut
  rw [acc1_eq s v hs hv, l1_eq s hs, refDen_eq, refMax_eq, hc]
  obtain ⟨s', rfl⟩ := SoftmaxMerge.exists_real_fun s hs
  obtain ⟨v', rfl⟩ := SoftmaxMerge.exists_real_fun v hv
  rw [SoftmaxMerge.num_coe, SoftmaxMerge.den_coe]
  -- the denominator is a positive real: a nonempty sum of exponentials
  have hL : (∑ j : Fin 2048, Real.exp (s' j - c)) ≠ 0 :=
    ne_of_gt (Finset.sum_pos (fun j _ => Real.exp_pos _) Finset.univ_nonempty)
  -- each term of the one-pass sum, as a real number
  have h1 : ∀ j : Fin 2048,
      Ideal.div (Ideal.exp ((s' j : EReal) - (c : EReal)))
          ((∑ j : Fin 2048, Real.exp (s' j - c) : ℝ) : EReal) * (v' j : EReal)
        = ((Real.exp (s' j - c) * (1 / ∑ j : Fin 2048, Real.exp (s' j - c)) * v' j : ℝ) : EReal) := by
    intro j
    rw [Ideal.div_coe hL, SoftmaxMerge.exp_coe_sub, ← EReal.coe_mul, ← EReal.coe_mul]
  rw [Finset.sum_congr rfl (fun j _ => h1 j), ← SoftmaxMerge.coe_sum, Ideal.div_coe hL,
    ← EReal.coe_mul, Finset.sum_mul]
  rw [EReal.coe_eq_coe_iff]
  exact Finset.sum_congr rfl (fun j _ => by ring)

end Row

/-- A real factor on the inner right operand of a nested contraction comes out of the whole sum. -/
theorem scale_out_nested {A B : Type} [Fintype A] [Fintype B] [DecidableEq A] [DecidableEq B]
    (x : B → EReal) (w : A → B → EReal) (y : A → EReal) (κ : ℝ)
    (hx : ∀ f, IsReal (x f)) (hw : ∀ o f, IsReal (w o f)) (hy : ∀ o, IsReal (y o)) :
    ∑ o : A, (∑ f : B, x f * (w o f * (κ : EReal))) * y o
      = (∑ o : A, (∑ f : B, x f * w o f) * y o) * (κ : EReal) := by
  -- the factor leaves the inner sum, then the outer one
  have h : ∀ o : A, ∑ f : B, x f * (w o f * (κ : EReal)) = (∑ f : B, x f * w o f) * (κ : EReal) :=
    fun o => SoftmaxMerge.scale_out_right x (w o) hx (hw o) κ
  calc ∑ o : A, (∑ f : B, x f * (w o f * (κ : EReal))) * y o
      = ∑ o : A, ((∑ f : B, x f * w o f) * (κ : EReal)) * y o :=
        Finset.sum_congr rfl (fun o _ => by rw [h o])
    _ = (∑ o : A, (∑ f : B, x f * w o f) * y o) * (κ : EReal) :=
        SoftmaxMerge.scale_out (fun o => ∑ f : B, x f * w o f) y
          (fun o => isReal_sum_univ _ fun f => isReal_mul (hx f) (hw o f)) hy κ

/-- A contraction of real families is real. -/
theorem isReal_dot {B : Type} [Fintype B] (x y : B → EReal) (hx : ∀ f, IsReal (x f)) (hy : ∀ f, IsReal (y f)) :
    IsReal (∑ f : B, x f * y f) :=
  isReal_sum_univ _ fun f => isReal_mul (hx f) (hy f)

end Cert.Hand.Flash

end

/-- info: 'Cert.Hand.Flash.flash_eq_ref' depends on axioms: [propext, Classical.choice, Quot.sound] -/
#guard_msgs in #print axioms Cert.Hand.Flash.flash_eq_ref

/-- info: 'Cert.Hand.Flash.scale_out_nested' depends on axioms: [propext, Classical.choice, Quot.sound] -/
#guard_msgs in #print axioms Cert.Hand.Flash.scale_out_nested
-- ==== Proof.Consts.lean ====
/-
  The float literals the two programs spell, as the extended reals their bit patterns denote at the ideal values:
  the score scale 1/32 (the kernel folds it into the query weights), the reference's divisor 32, minus infinity (the
  empty maximum) and zero. Stated once so that no other module unfolds the decoding.
-/
import Idealize.ShloMosaic.PureOps.Ideal

noncomputable section

namespace Cert.Hand.Consts

open Idealize.ShloMosaic

/-- The pattern 0x3D000000 is 2^-5 = 1/32. -/
theorem ofBits_inv32 : Ideal.ofBits .f32 0x3D000000#32 = (((1 : ℝ) / 32 : ℝ) : EReal) := by
  simp [Ideal.ofBits, Ideal.ieee, -EReal.coe_mul]; norm_num

/-- The pattern 0x42000000 is 32. -/
theorem ofBits_32 : Ideal.ofBits .f32 0x42000000#32 = ((32 : ℝ) : EReal) := by
  simp [Ideal.ofBits, Ideal.ieee, -EReal.coe_mul]; norm_num

/-- The pattern 0xFF800000 is minus infinity, the bottom of the extended reals. -/
theorem ofBits_neg_inf : Ideal.ofBits .f32 0xFF800000#32 = (⊥ : EReal) := by
  simp [Ideal.ofBits, Ideal.ieee]

/-- The pattern 0x00000000 is zero. -/
theorem ofBits_zero : Ideal.ofBits .f32 0x00000000#32 = (0 : EReal) := by
  simp [Ideal.ofBits, Ideal.ieee]

end Cert.Hand.Consts

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Ki.StepValue.lean ====
/-
  The online-softmax step functions read at an index, at the ideal values (extended reals, exact operations).
  For query row p of the point's query block q, key k of its key block kk and a bias tile bt, the score is
    tileScore p k = (∑ d, q[0, p, d] · kk[0, k, d]) + bt[p, k];
  the next maximum is the larger of the old one and the row's largest score, the old denominator and numerator are
  rescaled by exp (m_old - m_new) and the row's exponentials (times the value block's entries) are added; the final
  block divides the numerator by the denominator. The reset state is (-∞, 0, 0).
-/
import proofs.«406253_j51496657879663_3_alg».proof.Proof.Ki.Step
import proofs.«406253_j51496657879663_3_alg».proof.Proof.FlashMath
import proofs.«406253_j51496657879663_3_alg».proof.Proof.Consts
import proofs.«406253_j51496657879663_3_alg».proof.Proof.LibDotPlain
import proofs.«406253_j51496657879663_3_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Cert.Hand.Flash
open scoped BigOperators

/-- The score of query row p against key k of the point's blocks. -/
def tileScore (q : Vec Ideal S1x512x1024 .bf16) (kk : Vec Ideal S1x1024x1024 .bf16) (bt : Vec Ideal S512x1024 .f32)
    (p : Fin 512) (k : Fin 1024) : EReal :=
  (∑ d : Fin 1024, (q (ix3 (0 : Fin 1) p d) : EReal) * (kk (ix3 (0 : Fin 1) k d) : EReal)) + (bt (ix2 p k) : EReal)

theorem mInit_apply (p : Fin 512) : (mInit (F := Ideal) (ix2 p (0 : Fin 1)) : EReal) = ⊥ := by
  unfold mInit k1_pay5
  rw [shapeCast_self]
  exact Cert.Hand.Consts.ofBits_neg_inf

theorem lInit_apply (p : Fin 512) : (lInit (F := Ideal) (ix2 p (0 : Fin 1)) : EReal) = 0 := by
  unfold lInit k1_pay6
  rw [shapeCast_self]
  exact Cert.Hand.Consts.ofBits_zero

theorem accInit_apply (p : Fin 512) (o : Fin 1024) : (accInit (F := Ideal) (ix2 p o) : EReal) = 0 := by
  unfold accInit k1_pay7
  rw [shapeCast_self]
  exact Cert.Hand.Consts.ofBits_zero

/-- The score tile read at an index. -/
private theorem score_apply (q : Vec Ideal S1x512x1024 .bf16) (kk : Vec Ideal S1x1024x1024 .bf16) (bt : Vec Ideal S512x1024 .f32)
    (p : Fin 512) (k : Fin 1024) : (k1_pay9 q kk bt (ix2 p k) : EReal) = tileScore q kk bt p k := by
  unfold k1_pay9 tileScore dot_S512x1024_S1024x1024_S512x1024_1_0_0_1_n_n
  rw [addf_apply, shapeCast_self]
  refine congrArg (· + (bt (ix2 p k) : EReal)) ?_
  refine (Cert.LibDotPlain.matmul_zero_apply _ none _ _ p k).trans ?_
  refine Finset.sum_congr rfl fun d _ => ?_
  rw [shapeCast_1ab_ab_apply, transpose_ix2_apply, shapeCast_1ab_ab_apply]

/-- The index a row reduction inserts the key coordinate at. -/
private theorem lift_row (h : S512x1024.Reduces [1] S512) (p : Fin 512) (k : Fin 1024) :
    h.lift (ix1 p) k = ix2 p k := by
  funext a
  match a with
  | ⟨0, _⟩ => exact Fin.ext rfl
  | ⟨1, _⟩ => exact Fin.ext rfl

/-- The next maximum read at a row. -/
private theorem newMax_apply (q : Vec Ideal S1x512x1024 .bf16) (kk : Vec Ideal S1x1024x1024 .bf16) (bt : Vec Ideal S512x1024 .f32)
    (m : Vec Ideal S512x1 .f32) (p : Fin 512) :
    (k1_pay10 q kk bt m (ix2 p (0 : Fin 1)) : EReal)
      = max (m (ix2 p (0 : Fin 1)) : EReal) (rowMax fun k : Fin 1024 => tileScore q kk bt p k) := by
  unfold k1_pay10
  rw [maximumf_apply, Cert.LibColumn.shapeCast_a_a1_apply]
  refine congrArg (max (m (ix2 p (0 : Fin 1)) : EReal)) ?_
  refine (Ideal.multiReduction_maximumf_single _ _ _ _ _ (ix1 p)).trans ?_
  have e1 : FloatOps.ofBits (F := Ideal) .f32 0xFF800000#32 = (⊥ : EReal) := Cert.Hand.Consts.ofBits_neg_inf
  have e2 : ((k1_pay9 q kk bt) ∘ (reduces_S512x1024_S512).lift (ix1 p)) = fun k : Fin 1024 => tileScore q kk bt p k :=
    funext fun k : Fin 1024 =>
      (congrArg (k1_pay9 q kk bt) (lift_row reduces_S512x1024_S512 p k)).trans (score_apply q kk bt p k)
  unfold rowMax
  exact congrArg₂ (fun (b : EReal) (f : Fin 1024 → EReal) => (Finset.univ : Finset (Fin 1024)).fold max b f) e1 e2

theorem stepM_apply (q : Vec Ideal S1x512x1024 .bf16) (kk : Vec Ideal S1x1024x1024 .bf16) (bt : Vec Ideal S512x1024 .f32)
    (m : Vec Ideal S512x1 .f32) (p : Fin 512) :
    (stepM q kk bt m (ix2 p (0 : Fin 1)) : EReal)
      = max (m (ix2 p (0 : Fin 1)) : EReal) (rowMax fun k : Fin 1024 => tileScore q kk bt p k) := by
  unfold stepM k1_pay3
  rw [shapeCast_self]
  exact newMax_apply q kk bt m p

/-- The next maximum is the maximum payload itself. -/
private theorem stepM_eq (q : Vec Ideal S1x512x1024 .bf16) (kk : Vec Ideal S1x1024x1024 .bf16) (bt : Vec Ideal S512x1024 .f32)
    (m : Vec Ideal S512x1 .f32) : stepM q kk bt m = k1_pay10 q kk bt m := by
  unfold stepM k1_pay3
  exact shapeCast_self _ _

/-- The rescaling factor read at a row. -/
private theorem scale_apply (q : Vec Ideal S1x512x1024 .bf16) (kk : Vec Ideal S1x1024x1024 .bf16) (bt : Vec Ideal S512x1024 .f32)
    (m m' : Vec Ideal S512x1 .f32) (p : Fin 512) :
    (k1_pay11 q kk bt m m' (ix2 p (0 : Fin 1)) : EReal)
      = Ideal.exp ((m' (ix2 p (0 : Fin 1)) : EReal) - (stepM q kk bt m (ix2 p (0 : Fin 1)) : EReal)) := by
  rw [stepM_eq]
  rfl

/-- The exponential tile read at an index. -/
private theorem expTile_apply (q : Vec Ideal S1x512x1024 .bf16) (kk : Vec Ideal S1x1024x1024 .bf16) (bt : Vec Ideal S512x1024 .f32)
    (m : Vec Ideal S512x1 .f32) (p : Fin 512) (k : Fin 1024) :
    (k1_pay12 q kk bt m (ix2 p k) : EReal)
      = Ideal.exp (tileScore q kk bt p k - (stepM q kk bt m (ix2 p (0 : Fin 1)) : EReal)) := by
  rw [stepM_eq, ← score_apply q kk bt p k,
    ← Cert.LibColumn.broadcastTo_a1_ab_apply (k1_pay10 q kk bt m) broadcasts_S512x1_S512x1024 p k]
  rfl

theorem stepL_apply (q : Vec Ideal S1x512x1024 .bf16) (kk : Vec Ideal S1x1024x1024 .bf16) (bt : Vec Ideal S512x1024 .f32)
    (m l : Vec Ideal S512x1 .f32) (p : Fin 512) :
    (stepL q kk bt m l (ix2 p (0 : Fin 1)) : EReal)
      = Ideal.exp ((m (ix2 p (0 : Fin 1)) : EReal) - (stepM q kk bt m (ix2 p (0 : Fin 1)) : EReal)) * (l (ix2 p (0 : Fin 1)) : EReal)
        + ∑ k : Fin 1024, Ideal.exp (tileScore q kk bt p k - (stepM q kk bt m (ix2 p (0 : Fin 1)) : EReal)) := by
  unfold stepL k1_pay1 k1_pay13
  rw [shapeCast_self, addf_apply, mulf_apply, Cert.LibColumn.shapeCast_a_a1_apply, scale_apply]
  refine congrArg (Ideal.exp ((m (ix2 p (0 : Fin 1)) : EReal) - (stepM q kk bt m (ix2 p (0 : Fin 1)) : EReal)) * (l (ix2 p (0 : Fin 1)) : EReal) + ·) ?_
  refine (Ideal.multiReduction_add_single _ _ _ _ _ (ix1 p)).trans ?_
  refine Finset.sum_congr rfl fun (k : Fin 1024) _ => ?_
  exact (congrArg (k1_pay12 q kk bt m) (lift_row reduces_S512x1024_S512 p k)).trans (expTile_apply q kk bt m p k)

theorem stepAcc_apply (q : Vec Ideal S1x512x1024 .bf16) (kk vv : Vec Ideal S1x1024x1024 .bf16) (bt : Vec Ideal S512x1024 .f32)
    (m : Vec Ideal S512x1 .f32) (acc : Vec Ideal S512x1024 .f32) (p : Fin 512) (o : Fin 1024) :
    (stepAcc q kk vv bt m acc (ix2 p o) : EReal)
      = Ideal.exp ((m (ix2 p (0 : Fin 1)) : EReal) - (stepM q kk bt m (ix2 p (0 : Fin 1)) : EReal)) * (acc (ix2 p o) : EReal)
        + ∑ k : Fin 1024, Ideal.exp (tileScore q kk bt p k - (stepM q kk bt m (ix2 p (0 : Fin 1)) : EReal)) * (vv (ix3 (0 : Fin 1) k o) : EReal) := by
  unfold stepAcc k1_pay2 k1_pay8 dot_S512x1024_S1024x1024_S512x1024_1_0_0_1_n_n
  rw [shapeCast_self, addf_apply, mulf_apply, Cert.LibColumn.broadcastTo_a1_ab_apply, scale_apply]
  refine congrArg (Ideal.exp ((m (ix2 p (0 : Fin 1)) : EReal) - (stepM q kk bt m (ix2 p (0 : Fin 1)) : EReal)) * (acc (ix2 p o) : EReal) + ·) ?_
  refine (Cert.LibDotPlain.matmul_zero_apply _ none _ _ p o).trans ?_
  refine Finset.sum_congr rfl fun k _ => ?_
  rw [truncf_apply, expTile_apply, shapeCast_1ab_ab_apply]

theorem finOut_apply (acc : Vec Ideal S512x1024 .f32) (l : Vec Ideal S512x1 .f32) (p : Fin 512) (o : Fin 1024) :
    (finOut acc l (ix3 (0 : Fin 1) p o) : EReal) = Ideal.div (acc (ix2 p o) : EReal) (l (ix2 p (0 : Fin 1)) : EReal) := by
  unfold finOut k1_pay4
  refine (shapeCast_ab_1ab_apply _ _ (0 : Fin 1) p o).trans ?_
  rw [divf_apply]
  exact congrArg (Ideal.div (acc (ix2 p o))) (Cert.LibColumn.broadcastTo_a1_ab_apply l _ p o)

end Cert.KernelIdeal.Hand

end
-- ==== Proof.Spec.lean ====
/-
  The common specification of the two programs, one output entry at a time.

  For activations x[b, r, f], weights Wq, Wk, Wv[o, f] and a bias matrix bias[r, k]:
    proj x W b r o      = ∑ f, x[b, r, f] · W[o, f]                       (a linear layer, weights transposed)
    score b r k         = (∑ o, proj x Wq b r o · proj x Wk b k o) / 32 + bias[r, k]
    out b r o           = ∑ k, softmax_k (score b r ·) · proj x Wv b k o
  The reference divides the contraction by 32; the kernel multiplies the query weights by 1/32 beforehand
  (scoreK) and evaluates the softmax-weighted sum in two halves of the key axis (Flash.flashOut). On real inputs the
  two agree: a real factor comes out of the nested contraction, and the two-pass evaluation is the one-pass one.
-/
import Idealize.ShloMosaic.Lib.ValueIdx
import proofs.«406253_j51496657879663_3_alg».proof.Proof.FlashMath

noncomputable section

open Idealize.ShloMosaic Idealize.ShloMosaic.ValueIdx
open scoped BigOperators

namespace Cert.Hand.Spec

open Cert.Hand.Flash Cert.LibERealSage

abbrev SX : Shape := ⟨3, ![8, 2048, 1024]⟩
abbrev SW : Shape := ⟨2, ![1024, 1024]⟩
abbrev SB : Shape := ⟨2, ![2048, 2048]⟩

variable (x : SX.Idx → EReal) (Wq Wk Wv : SW.Idx → EReal) (bias : SB.Idx → EReal)

/-- A linear layer with transposed weights, one entry. -/
def proj (W : SW.Idx → EReal) (b : Fin 8) (r : Fin 2048) (o : Fin 1024) : EReal :=
  ∑ f : Fin 1024, x (ix3 b r f) * W (ix2 o f)

/-- The same with every weight scaled by κ first. -/
def projS (W : SW.Idx → EReal) (κ : EReal) (b : Fin 8) (r : Fin 2048) (o : Fin 1024) : EReal :=
  ∑ f : Fin 1024, x (ix3 b r f) * (W (ix2 o f) * κ)

/-- The reference's score: the contraction divided by 32, plus the bias. -/
def scoreR (b : Fin 8) (r k : Fin 2048) : EReal :=
  Ideal.div (∑ o : Fin 1024, proj x Wq b r o * proj x Wk b k o) ((32 : ℝ) : EReal) + bias (ix2 r k)

/-- The kernel's score: the query weights scaled by 1/32 beforehand, plus the bias. -/
def scoreK (b : Fin 8) (r k : Fin 2048) : EReal :=
  (∑ o : Fin 1024, projS x Wq (((1 : ℝ) / 32 : ℝ) : EReal) b r o * proj x Wk b k o) + bias (ix2 r k)

/-- The reference's output entry. -/
def outR (b : Fin 8) (r : Fin 2048) (o : Fin 1024) : EReal :=
  refOut (scoreR x Wq Wk bias b r) (fun k => proj x Wv b k o)

/-- The kernel's output entry. -/
def outK (b : Fin 8) (r : Fin 2048) (o : Fin 1024) : EReal :=
  flashOut (scoreK x Wq Wk bias b r) (fun k => proj x Wv b k o)

variable {x Wq Wk Wv bias}

theorem isReal_proj {W : SW.Idx → EReal} (hx : ∀ i, IsReal (x i)) (hW : ∀ i, IsReal (W i)) (b : Fin 8) (r : Fin 2048) (o : Fin 1024) :
    IsReal (proj x W b r o) :=
  isReal_dot _ _ (fun _ => hx _) (fun _ => hW _)

/-- On real inputs the kernel's score is the reference's. -/
theorem scoreK_eq_scoreR (hx : ∀ i, IsReal (x i)) (hq : ∀ i, IsReal (Wq i)) (hk : ∀ i, IsReal (Wk i))
    (b : Fin 8) (r k : Fin 2048) : scoreK x Wq Wk bias b r k = scoreR x Wq Wk bias b r k := by
  unfold scoreK scoreR projS proj
  rw [scale_out_nested (fun f => x (ix3 b r f)) (fun o f => Wq (ix2 o f)) (fun o => ∑ f : Fin 1024, x (ix3 b k f) * Wk (ix2 o f))
      ((1 : ℝ) / 32) (fun _ => hx _) (fun _ _ => hq _) (fun o => isReal_dot _ _ (fun _ => hx _) (fun _ => hk _)),
    Ideal.div_coe (by norm_num : (32 : ℝ) ≠ 0)]

theorem isReal_scoreR (hx : ∀ i, IsReal (x i)) (hq : ∀ i, IsReal (Wq i)) (hk : ∀ i, IsReal (Wk i)) (hb : ∀ i, IsReal (bias i))
    (b : Fin 8) (r k : Fin 2048) : IsReal (scoreR x Wq Wk bias b r k) := by
  unfold scoreR
  rw [Ideal.div_coe (by norm_num : (32 : ℝ) ≠ 0)]
  exact isReal_add (isReal_mul (isReal_sum_univ _ fun o => isReal_mul (isReal_proj hx hq b r o) (isReal_proj hx hk b k o)) (isReal_coe _)) (hb _)

/-- On real inputs the kernel's output entry is the reference's. -/
theorem outK_eq_outR (hx : ∀ i, IsReal (x i)) (hq : ∀ i, IsReal (Wq i)) (hk : ∀ i, IsReal (Wk i)) (hv : ∀ i, IsReal (Wv i))
    (hb : ∀ i, IsReal (bias i)) (b : Fin 8) (r : Fin 2048) (o : Fin 1024) :
    outK x Wq Wk Wv bias b r o = outR x Wq Wk Wv bias b r o := by
  unfold outK outR
  rw [show scoreK x Wq Wk bias b r = scoreR x Wq Wk bias b r from funext fun k => scoreK_eq_scoreR hx hq hk b r k]
  exact flash_eq_ref _ _ (fun k => isReal_scoreR hx hq hk hb b r k) (fun k => isReal_proj hx hv b k o)

end Cert.Hand.Spec

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.Ki.HostValue.lean ====
/-
  What the attention region finds in its two arrays, at the ideal values, in terms of the program's arguments.
  The packed projections [8, 2048, 3072]: columns 0..1023 are the query projection with every weight scaled by 1/32,
  columns 1024..2047 the key projection, columns 2048..3071 the value projection (the projection region multiplies each
  block of 512 flattened activation rows with the transposed stack of the three weight matrices; its blocks tile the
  result; the host reshapes the result to [8, 2048, 3072]). The bias array is the host's gather of the
  relative-position table at the (wrapped) relative positions.
-/
import proofs.«406253_j51496657879663_3_alg».proof.Proof.Ki.Chain
import proofs.«406253_j51496657879663_3_alg».proof.Proof.Spec
import proofs.«406253_j51496657879663_3_alg».proof.Proof.Consts
import proofs.«406253_j51496657879663_3_alg».proof.Proof.LibDotLastAxis
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand
open scoped BigOperators

variable (m : (ℓ : Loc nD τ sig) → Buf (Elt Ideal) ℓ) (ρ : Dev nD → PrngReg)

/-- The program's float arguments on core c, as arrays of extended reals. -/
abbrev argX (c : Dev nD) : Spec.SX.Idx → EReal := m ((c.tc : Thread nD τ).loc main_arg0)
abbrev argWq (c : Dev nD) : Spec.SW.Idx → EReal := m ((c.tc : Thread nD τ).loc main_arg1)
abbrev argWk (c : Dev nD) : Spec.SW.Idx → EReal := m ((c.tc : Thread nD τ).loc main_arg2)
abbrev argWv (c : Dev nD) : Spec.SW.Idx → EReal := m ((c.tc : Thread nD τ).loc main_arg3)

/-- The relative-position bias as the host computes it from the table x4 and the relative positions x5: negative
    positions wrapped by 2048, a zero column index appended, the table gathered. -/
def biasK (x4 : (⟨S2048x1, .f32⟩ : BufTy).Contents (Elt Ideal)) (x5 : (⟨S2048x2048, .i32⟩ : BufTy).Contents (Elt Ideal)) :
    (⟨S2048x2048, .f32⟩ : BufTy).Contents (Elt Ideal) :=
  Host.gather gather_S2048x1_S2048x2048x2_S2048x2048_n_01_n_n_01_2_11 x4
    (concatenate S2048x2048x2 2
      [⟨S2048x2048x1, broadcastInDim S2048x2048x1 ![0, 1] bcast_S2048x2048_S2048x2048x1_0_1
          (select (cmpi .slt x5 (broadcastInDim S2048x2048 ![] bcast_S_S2048x2048 (constantI S_ 32 0#32)))
            (addi x5 (broadcastInDim S2048x2048 ![] bcast_S_S2048x2048 (constantI S_ 32 2048#32))) x5)⟩,
       ⟨S2048x2048x1, broadcastInDim S2048x2048x1 ![0, 1] bcast_S2048x2048_S2048x2048x1_0_1
          (id (broadcastInDim S2048x2048 ![] bcast_S_S2048x2048 (constantI S_ 32 0#32)))⟩]
      concatenates_S2048x2048x1_S2048x2048x1_S2048x2048x2_d2)

/-! ## The projection region's result array -/

section Region

open Idealize.ShloMosaic.LibDotLastAxis in
/-- The body's payload at an entry: the block's row against the stacked matrix's row, contracted. -/
private theorem pay_apply (x0 : Vec Ideal S512x1024 .f32) (x1 : Vec Ideal S3072x1024 .bf16) (a : Fin 512) (b : Fin 3072) :
    (k0_pay1 x0 x1 : S512x3072.Idx → EReal) (ix2 a b) = ∑ f : Fin 1024, (x0 (ix2 a f) : EReal) * (x1 (ix2 b f) : EReal) := by
  unfold k0_pay1
  simp only [shapeCast_self]
  exact matmul_zero_apply (m := 512) (n := 3072) (k := 1024) (φ₁ := .bf16) (φ₂ := .bf16)
    dot_S512x1024_S3072x1024_S512x3072_1_1_0_0_n_n_wf none (truncf .bf16 (x0 : FVec Ideal S512x1024 .f32) bitsLt_bf16_f32) x1 a b

variable (V : (c : Dev nD) → (b : Ref sig .tc) → Buf (Elt Ideal) ((c : Thread nD τ).loc b))

/-- The zero offsets, as a constant function. -/
private theorem hz : (![0, 0] : Fin 2 → Nat) = fun _ => 0 := funext fun a => by fin_cases a <;> rfl

/-- The packed result as one function of the two arrays the region reads: row R of the flattened activations against
    row n of the stacked weights. -/
private def G0 (A : S16384x1024.Idx → EReal) (B : S3072x1024.Idx → EReal) : S16384x3072.Idx → EReal := fun i =>
  ∑ f : Fin 1024, A (ix2 (i 0) f) * B (ix2 (i 1) f)

/-- The windows' index maps over the grid: the activations' and the result's blocks move down the rows with the point,
    the weights' block stays. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t is rows 512 t .. 512 t + 511 of the flattened activations. -/
private theorem iblk0_0_apply (c : Dev nD) (t : Fin cfg0.N) (p : Fin 512) (f : Fin 1024) (i : S16384x1024.Idx)
    (h0 : (i 0).val = t.val * 512 + p.val) (h1 : (i 1).val = f.val) :
    (iblk0 V c 0 t : Vec Ideal S512x1024 .f32) (ix2 p f) = (V c main_v4 : S16384x1024.Idx → EReal) i := by
  obtain ⟨e0, e1, -⟩ := idx_facts t
  show V c main_v4 (((cfg0.win 0).blk t).view.emb (ix2 p f)) = V c main_v4 i
  congr 1
  funext a; apply Fin.ext
  match a with
  | ⟨0, _⟩ => show win0_0.index t (0 : Fin 2) * 512 + 1 * p.val = (i 0).val; omega
  | ⟨1, _⟩ => show win0_0.index t (1 : Fin 2) * 1024 + 1 * f.val = (i 1).val; omega

/-- The weights' block at every point is the whole stacked matrix. -/
private theorem iblk0_1_apply (c : Dev nD) (t : Fin cfg0.N) (q : Fin 3072) (f : Fin 1024) (i : S3072x1024.Idx)
    (h0 : (i 0).val = q.val) (h1 : (i 1).val = f.val) :
    (iblk0 V c 1 t : Vec Ideal S3072x1024 .bf16) (ix2 q f) = (V c main_v3 : S3072x1024.Idx → EReal) i := by
  obtain ⟨-, -, e0, e1, -⟩ := idx_facts t
  show V c main_v3 (((cfg0.win 1).blk t).view.emb (ix2 q f)) = V c main_v3 i
  congr 1
  funext a; apply Fin.ext
  match a with
  | ⟨0, _⟩ => show win0_1.index t (0 : Fin 2) * 3072 + 1 * q.val = (i 0).val; omega
  | ⟨1, _⟩ => show win0_1.index t (1 : Fin 2) * 1024 + 1 * f.val = (i 1).val; omega

/-- What point t writes back is block t of G0 of the two arrays as the region finds them. -/
private theorem flushed_eq (c : Dev nD) (t : Fin cfg0.N) :
    (dat0 V c).flushed 2 t = ((cfg0.win 2).blk t).view.read (Elt Ideal) (G0 (V c main_v4) (V c main_v3)) := by
  show (cfg0.win 2).cut (grid0.coords t) ((dat0 V c).after 2 t) = _
  rw [after0_2]
  unfold out0_2
  rw [View.canon_unit_zero hz]
  simp only [View.ld_unit_zero (S := S512x1024) hz, View.ld_unit_zero (S := S3072x1024) hz]
  funext j
  obtain ⟨p, q, rfl⟩ : ∃ (p : Fin 512) (q : Fin 3072), j = ix2 p q := ⟨j 0, j 1, eq_ix2 j⟩
  obtain ⟨-, -, -, -, e0, e1⟩ := idx_facts t
  show (k0_pay1 (iblk0 V c 0 t) (iblk0 V c 1 t) : S512x3072.Idx → EReal) (ix2 p q)
    = G0 (V c main_v4) (V c main_v3) (((cfg0.win 2).blk t).view.emb (ix2 p q))
  rw [pay_apply]
  unfold G0
  refine Finset.sum_congr rfl fun f _ => ?_
  have k0 : ((((cfg0.win 2).blk t).view.emb (ix2 p q)) 0).val = t.val * 512 + p.val := by
    show win0_2.index t (0 : Fin 2) * 512 + 1 * p.val = _; omega
  have k1 : ((((cfg0.win 2).blk t).view.emb (ix2 p q)) 1).val = q.val := by
    show win0_2.index t (1 : Fin 2) * 3072 + 1 * q.val = _; omega
  rw [iblk0_0_apply V c t p f (ix2 ((((cfg0.win 2).blk t).view.emb (ix2 p q)) 0) f) k0 rfl,
    iblk0_1_apply V c t q f (ix2 ((((cfg0.win 2).blk t).view.emb (ix2 p q)) 1) f) k1 rfl]

/-- An index of the result array is in point t's block iff each coordinate is in the block's range on its axis. -/
private theorem mem_blk (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v5).slice (win0_2.rect t)).set ↔ _
  rw [View.set_slice_whole, Rect.mem_set_unit]
  exact Iff.rfl

/-- The result's blocks tile the array: row R is in the block of point R / 512. -/
private theorem cover (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  have hN : cfg0.N = 32 := N_0
  let t : Fin cfg0.N := ⟨(i 0).val / 512, by rw [hN]; omega⟩
  refine ⟨t, flush0_2 t, ?_⟩
  rw [mem_blk]
  obtain ⟨-, -, -, -, e0, e1⟩ := idx_facts t
  have ht : t.val = (i 0).val / 512 := rfl
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The projection region's result array: entry (R, n) is row R of the flattened activations against row n of the
    stacked weights. -/
private theorem arr2_eq (c : Dev nD) : (dat0 V c).arrAt 2 cfg0.N = G0 (V c main_v4) (V c main_v3) :=
  (dat0 V c).arrAt_eq_of_cover 2 (G0 (V c main_v4) (V c main_v3)) (fun t _ => flushed_eq V c t) cover

end Region

/-! ## Layout operations read at an index -/

/-- The flattened activations at row 2048 b + r are the activations at (b, r). -/
private theorem reshape_x (x : S8x2048x1024.Idx → EReal) (b : Fin 8) (r : Fin 2048) (f : Fin 1024) (R : Fin 16384)
    (hR : R.val = 2048 * b.val + r.val) :
    shapeCast S16384x1024 x shapeCasts_S8x2048x1024_S16384x1024 (ix2 R f) = x (ix3 b r f) := by
  refine shapeCast_apply x _ (ix2 R f) (ix3 b r f) ?_
  rw [Shape.rowMajor_val_three, Shape.rowMajor_val_two]
  show (b.val * 2048 + r.val) * 1024 + f.val = R.val * 1024 + f.val
  omega

/-- The packed result reshaped: entry (b, r, n) is row 2048 b + r, column n. -/
private theorem reshape_out (y : S16384x3072.Idx → EReal) (b : Fin 8) (r : Fin 2048) (n : Fin 3072) (R : Fin 16384)
    (hR : R.val = 2048 * b.val + r.val) :
    shapeCast S8x2048x3072 y shapeCasts_S16384x3072_S8x2048x3072 (ix3 b r n) = y (ix2 R n) := by
  refine shapeCast_apply y _ (ix3 b r n) (ix2 R n) ?_
  rw [Shape.rowMajor_val_three, Shape.rowMajor_val_two]
  show R.val * 3072 + n.val = (b.val * 2048 + r.val) * 3072 + n.val
  omega

/-- The stack of three square matrices along the rows: rows 0..1023 are the first's, -/
private theorem stack_0 (w1 w2 w3 : S1024x1024.Idx → EReal) (o f : Fin 1024) (n : Fin 3072) (hn : n.val = o.val) :
    concatenate S3072x1024 0 [⟨S1024x1024, w1⟩, ⟨S1024x1024, w2⟩, ⟨S1024x1024, w3⟩]
      concatenates_S1024x1024_S1024x1024_S1024x1024_S3072x1024_d0 (ix2 n f) = w1 (ix2 o f) := by
  refine concatenate_apply_piece (t := S3072x1024) 0 _ _ (ix2 n f) 0 (by show (0 : Nat) < 3; omega) S1024x1024 w1 rfl rfl 0 rfl (ix2 o f) ?_ ?_
  · intro b hb
    match b with
    | ⟨0, _⟩ => exact absurd rfl hb
    | ⟨1, _⟩ => rfl
  · show 0 + o.val = n.val; omega

/-- rows 1024..2047 the second's, -/
private theorem stack_1 (w1 w2 w3 : S1024x1024.Idx → EReal) (o f : Fin 1024) (n : Fin 3072) (hn : n.val = 1024 + o.val) :
    concatenate S3072x1024 0 [⟨S1024x1024, w1⟩, ⟨S1024x1024, w2⟩, ⟨S1024x1024, w3⟩]
      concatenates_S1024x1024_S1024x1024_S1024x1024_S3072x1024_d0 (ix2 n f) = w2 (ix2 o f) := by
  refine concatenate_apply_piece (t := S3072x1024) 0 _ _ (ix2 n f) 1 (by show (1 : Nat) < 3; omega) S1024x1024 w2 rfl rfl 1024 rfl (ix2 o f) ?_ ?_
  · intro b hb
    match b with
    | ⟨0, _⟩ => exact absurd rfl hb
    | ⟨1, _⟩ => rfl
  · show 1024 + o.val = n.val; omega

/-- rows 2048..3071 the third's. -/
private theorem stack_2 (w1 w2 w3 : S1024x1024.Idx → EReal) (o f : Fin 1024) (n : Fin 3072) (hn : n.val = 2048 + o.val) :
    concatenate S3072x1024 0 [⟨S1024x1024, w1⟩, ⟨S1024x1024, w2⟩, ⟨S1024x1024, w3⟩]
      concatenates_S1024x1024_S1024x1024_S1024x1024_S3072x1024_d0 (ix2 n f) = w3 (ix2 o f) := by
  refine concatenate_apply_piece (t := S3072x1024) 0 _ _ (ix2 n f) 2 (by show (2 : Nat) < 3; omega) S1024x1024 w3 rfl rfl 2048 rfl (ix2 o f) ?_ ?_
  · intro b hb
    match b with
    | ⟨0, _⟩ => exact absurd rfl hb
    | ⟨1, _⟩ => rfl
  · show 2048 + o.val = n.val; omega

/-! ## The first host stretch: what the projection region finds in its two input arrays -/

/-- The activations' array is the activations flattened to [16384, 1024]. -/
private theorem v4_eq (c : Dev nD) :
    (V1 m ρ c main_v4 : S16384x1024.Idx → EReal)
      = shapeCast S16384x1024 (m ((c.tc : Thread nD τ).loc main_arg0)) shapeCasts_S8x2048x1024_S16384x1024 := by
  dsimp only [V1, W1]
  after_results
  rfl

/-- The weights' array is the stack of the scaled query weights, the key weights and the value weights, narrowed. -/
private theorem v3_eq (c : Dev nD) :
    (V1 m ρ c main_v3 : S3072x1024.Idx → EReal)
      = truncf .bf16 (concatenate S3072x1024 0
          [⟨S1024x1024, mulf (m ((c.tc : Thread nD τ).loc main_arg1) : FVec Ideal S1024x1024 .f32)
              (broadcastInDim S1024x1024 ![] bcast_S_S1024x1024 (constant (F := Ideal) S_ .f32 0x3D000000#32))⟩,
           ⟨S1024x1024, (m ((c.tc : Thread nD τ).loc main_arg2) : FVec Ideal S1024x1024 .f32)⟩,
           ⟨S1024x1024, (m ((c.tc : Thread nD τ).loc main_arg3) : FVec Ideal S1024x1024 .f32)⟩]
          concatenates_S1024x1024_S1024x1024_S1024x1024_S3072x1024_d0 : FVec Ideal S3072x1024 .f32) bitsLt_bf16_f32 := by
  dsimp only [V1, W1]
  after_results
  rfl

/-- The two arrays under names whose entries are extended reals. -/
private abbrev flatX (c : Dev nD) : S16384x1024.Idx → EReal := V1 m ρ c main_v4
private abbrev stackW (c : Dev nD) : S3072x1024.Idx → EReal := V1 m ρ c main_v3

/-- The scale the query weights are multiplied by, at every index: 1/32. -/
private theorem scale_apply (i : S1024x1024.Idx) :
    (broadcastInDim S1024x1024 ![] bcast_S_S1024x1024 (constant (F := Ideal) S_ .f32 0x3D000000#32) : FVec Ideal S1024x1024 .f32) i
      = (((1 : ℝ) / 32 : ℝ) : EReal) := by
  rw [broadcastInDim_apply (![] : Fin 0 → Fin 2) bcast_S_S1024x1024 _ i ix0 (fun a => a.elim0), constant_apply, Consts.ofBits_inv32]

/-- Row 2048 b + r of the flattened activations is row (b, r) of the activations. -/
private theorem flatX_apply (c : Dev nD) (b : Fin 8) (r : Fin 2048) (f : Fin 1024) (R : Fin 16384) (hR : R.val = 2048 * b.val + r.val) :
    flatX m ρ c (ix2 R f) = argX m c (ix3 b r f) := by
  unfold flatX
  rw [v4_eq]
  exact reshape_x _ b r f R hR

/-- Rows 0..1023 of the stack: the query weights, each scaled by 1/32. -/
private theorem stackW_q (c : Dev nD) (o f : Fin 1024) (n : Fin 3072) (hn : n.val = o.val) :
    stackW m ρ c (ix2 n f) = argWq m c (ix2 o f) * (((1 : ℝ) / 32 : ℝ) : EReal) := by
  unfold stackW
  rw [v3_eq, truncf_apply, stack_0 _ _ _ o f n hn, mulf_apply, scale_apply]

/-- Rows 1024..2047: the key weights. -/
private theorem stackW_k (c : Dev nD) (o f : Fin 1024) (n : Fin 3072) (hn : n.val = 1024 + o.val) :
    stackW m ρ c (ix2 n f) = argWk m c (ix2 o f) := by
  unfold stackW
  rw [v3_eq, truncf_apply, stack_1 _ _ _ o f n hn]

/-- Rows 2048..3071: the value weights. -/
private theorem stackW_v (c : Dev nD) (o f : Fin 1024) (n : Fin 3072) (hn : n.val = 2048 + o.val) :
    stackW m ρ c (ix2 n f) = argWv m c (ix2 o f) := by
  unfold stackW
  rw [v3_eq, truncf_apply, stack_2 _ _ _ o f n hn]

/-! ## The second host stretch -/

/-- The attention region's packed array is the projection region's result reshaped to [8, 2048, 3072]. -/
private theorem v6_eq (c : Dev nD) :
    (V3 m ρ c main_v6 : S8x2048x3072.Idx → EReal)
      = shapeCast S8x2048x3072 (W2 m ρ c (Proc.devRef .tc main_v5) : S16384x3072.Idx → EReal) shapeCasts_S16384x3072_S8x2048x3072 := by
  dsimp only [V3, W3]
  after_results
  rfl

/-- The projection region's result array, at its exit. -/
private theorem v5_eq (c : Dev nD) :
    (W2 m ρ c (Proc.devRef .tc main_v5) : S16384x3072.Idx → EReal) = (dat0 (V1 m ρ) c).arrAt 2 cfg0.N :=
  W2_arr m ρ c 2

/-- The packed projections at (b, r, n): row (b, r) of the activations against row n of the stacked weights. -/
private theorem qkv_apply (c : Dev nD) (b : Fin 8) (r : Fin 2048) (n : Fin 3072) :
    (V3 m ρ c main_v6 (ix3 b r n) : EReal)
      = ∑ f : Fin 1024, argX m c (ix3 b r f) * stackW m ρ c (ix2 n f) := by
  rw [v6_eq, reshape_out _ b r n ⟨2048 * b.val + r.val, by omega⟩ rfl, v5_eq, arr2_eq]
  unfold G0
  show @Eq EReal _ _
  refine Finset.sum_congr rfl fun f _ => ?_
  show flatX m ρ c (ix2 _ f) * stackW m ρ c (ix2 n f) = _
  rw [flatX_apply m ρ c b r f _ rfl]

/-- The relative-position table reaches the second host stretch as launched: neither the first stretch nor the projection
    region writes it. -/
private theorem W2_arg4 (c : Dev nD) :
    (W2 m ρ c (Proc.devRef .tc main_arg4) : (⟨S2048x1, .f32⟩ : BufTy).Contents (Elt Ideal)) = m ((c.tc : Thread nD τ).loc main_arg4) := by
  rw [W2_of_ne m ρ c main_arg4 (by decide)]
  dsimp only [W1]
  after_results

/-- So do the relative positions. -/
private theorem W2_arg5 (c : Dev nD) :
    (W2 m ρ c (Proc.devRef .tc main_arg5) : (⟨S2048x2048, .i32⟩ : BufTy).Contents (Elt Ideal)) = m ((c.tc : Thread nD τ).loc main_arg5) := by
  rw [W2_of_ne m ρ c main_arg5 (by decide)]
  dsimp only [W1]
  after_results

/-- The attention region's bias array is the host's gathered bias of the arguments. -/
theorem bias_eq (c : Dev nD) :
    (V3 m ρ c main_v17 : (⟨S2048x2048, .f32⟩ : BufTy).Contents (Elt Ideal))
      = biasK (m ((c.tc : Thread nD τ).loc main_arg4)) (m ((c.tc : Thread nD τ).loc main_arg5)) := by
  rw [← W2_arg4 m ρ c, ← W2_arg5 m ρ c]
  dsimp only [V3, W3]
  after_results
  rfl

/-- Columns 0..1023 of the packed projections: the query projection, the weights scaled by 1/32. -/
theorem qkv_q (c : Dev nD) (b : Fin 8) (r : Fin 2048) (o : Fin 1024) :
    (V3 m ρ c main_v6 (ix3 b r (⟨o.val, by omega⟩ : Fin 3072)) : EReal)
      = Spec.projS (argX m c) (argWq m c) (((1 : ℝ) / 32 : ℝ) : EReal) b r o := by
  rw [qkv_apply]
  unfold Spec.projS
  show @Eq EReal _ _
  refine Finset.sum_congr rfl fun f _ => ?_
  rw [stackW_q m ρ c o f _ rfl]

/-- Columns 1024..2047: the key projection. -/
theorem qkv_k (c : Dev nD) (b : Fin 8) (r : Fin 2048) (o : Fin 1024) :
    (V3 m ρ c main_v6 (ix3 b r (⟨1024 + o.val, by omega⟩ : Fin 3072)) : EReal)
      = Spec.proj (argX m c) (argWk m c) b r o := by
  rw [qkv_apply]
  unfold Spec.proj
  show @Eq EReal _ _
  refine Finset.sum_congr rfl fun f _ => ?_
  rw [stackW_k m ρ c o f _ rfl]

/-- Columns 2048..3071: the value projection. -/
theorem qkv_v (c : Dev nD) (b : Fin 8) (r : Fin 2048) (o : Fin 1024) :
    (V3 m ρ c main_v6 (ix3 b r (⟨2048 + o.val, by omega⟩ : Fin 3072)) : EReal)
      = Spec.proj (argX m c) (argWv m c) b r o := by
  rw [qkv_apply]
  unfold Spec.proj
  show @Eq EReal _ _
  refine Finset.sum_congr rfl fun f _ => ?_
  rw [stackW_v m ρ c o f _ rfl]

end Cert.KernelIdeal.Hand

end
-- ==== Proof.Ki.KernelValue.lean ====
/-
  The kernel's result array at the ideal values, one entry at a time: row r = 512 qi + p of batch b, column o, is the
  two-pass attention entry of the specification (Spec.outK). The second-half point of (qi, b) stores the normalised
  numerator; its state comes from the first-half point, which started from the reset state; each step's scores are the
  scaled-query / key contractions plus the bias, read off the packed projections and the bias array.
-/
import proofs.«406253_j51496657879663_3_alg».proof.Proof.Ki.Blocks
import proofs.«406253_j51496657879663_3_alg».proof.Proof.Ki.AttnPieces
import proofs.«406253_j51496657879663_3_alg».proof.Proof.Ki.StepValue
import proofs.«406253_j51496657879663_3_alg».proof.Proof.Ki.HostValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand
open scoped BigOperators

open Cert.Hand.Flash

/-! ## Two steps from the reset state are the two-pass computation -/

/-- Over blocks whose scores and values are the two halves of a row's scores s and values v. -/
theorem flash_of_steps (q0 q1 : Vec Ideal S1x512x1024 .bf16) (k0 k1 v0 v1 : Vec Ideal S1x1024x1024 .bf16)
    (bt0 bt1 : Vec Ideal S512x1024 .f32) (p : Fin 512) (o : Fin 1024) (s v : Fin 2048 → EReal)
    (hs0 : ∀ k, tileScore q0 k0 bt0 p k = s (lo k)) (hs1 : ∀ k, tileScore q1 k1 bt1 p k = s (hi k))
    (hv0 : ∀ k, (v0 (ix3 (0 : Fin 1) k o) : EReal) = v (lo k)) (hv1 : ∀ k, (v1 (ix3 (0 : Fin 1) k o) : EReal) = v (hi k)) :
    (finOut (stepAcc q1 k1 v1 bt1 (stepM q0 k0 bt0 mInit) (stepAcc q0 k0 v0 bt0 mInit accInit))
        (stepL q1 k1 bt1 (stepM q0 k0 bt0 mInit) (stepL q0 k0 bt0 mInit lInit)) (ix3 (0 : Fin 1) p o) : EReal)
      = flashOut s v := by
  have hm0 : (stepM q0 k0 bt0 mInit (ix2 p (0 : Fin 1)) : EReal) = m0 s := by
    rw [stepM_apply, mInit_apply]; unfold m0; simp only [hs0]
  have hl0 : (stepL q0 k0 bt0 mInit lInit (ix2 p (0 : Fin 1)) : EReal) = l0 s := by
    rw [stepL_apply, hm0, mInit_apply, lInit_apply]; unfold l0 a0; simp only [hs0]
  have hacc0 : (stepAcc q0 k0 v0 bt0 mInit accInit (ix2 p o) : EReal) = acc0 s v := by
    rw [stepAcc_apply, hm0, mInit_apply, accInit_apply]; unfold acc0 a0; simp only [hs0, hv0]
  have hm1 : (stepM q1 k1 bt1 (stepM q0 k0 bt0 mInit) (ix2 p (0 : Fin 1)) : EReal) = m1 s := by
    rw [stepM_apply, hm0]; unfold m1; simp only [hs1]
  have hl1 : (stepL q1 k1 bt1 (stepM q0 k0 bt0 mInit) (stepL q0 k0 bt0 mInit lInit) (ix2 p (0 : Fin 1)) : EReal) = l1 s := by
    rw [stepL_apply, hm1, hm0, hl0]; unfold l1 a1; simp only [hs1]
  have hacc1 : (stepAcc q1 k1 v1 bt1 (stepM q0 k0 bt0 mInit) (stepAcc q0 k0 v0 bt0 mInit accInit) (ix2 p o) : EReal) = acc1 s v := by
    rw [stepAcc_apply, hm1, hm0, hacc0]; unfold acc1 a1; simp only [hs1, hv1]
  rw [finOut_apply, hacc1, hl1]; rfl

variable (m : (ℓ : Loc nD τ sig) → Buf (Elt Ideal) ℓ) (ρ : Dev nD → PrngReg)

/-- The bias matrix of the specification: the host's gathered bias of the arguments. -/
abbrev argBias (c : Dev nD) : Spec.SB.Idx → EReal :=
  biasK (m ((c.tc : Thread nD τ).loc main_arg4)) (m ((c.tc : Thread nD τ).loc main_arg5))

/-! ## The blocks' scores and values are the specification's -/

theorem tileScore_eq (c : Dev nD) (qi : Fin 4) (b : Fin 8) (kv : Fin 2) (p : Fin 512) (k : Fin 1024) :
    tileScore (qblk (V3 m ρ) c (pt qi b kv)) (kblk (V3 m ρ) c (pt qi b kv))
        (biasTile (grid1.coords (pt qi b kv)) (bblk (V3 m ρ) c (pt qi b kv))) p k
      = Spec.scoreK (argX m c) (argWq m c) (argWk m c) (argBias m c) b (⟨512 * qi.val + p.val, by omega⟩ : Fin 2048)
          (⟨1024 * kv.val + k.val, by omega⟩ : Fin 2048) := by
  unfold tileScore Spec.scoreK
  rw [biasTile_apply]
  refine congrArg₂ (· + ·) (Finset.sum_congr rfl fun d _ => ?_) (congrFun (bias_eq m ρ c) _)
  rw [qblk_apply, kblk_apply]
  exact congrArg₂ (· * ·) (qkv_q m ρ c b _ d) (qkv_k m ρ c b _ d)

theorem vblk_eq (c : Dev nD) (qi : Fin 4) (b : Fin 8) (kv : Fin 2) (k : Fin 1024) (o : Fin 1024) :
    (vblk (V3 m ρ) c (pt qi b kv) (ix3 (0 : Fin 1) k o) : EReal)
      = Spec.proj (argX m c) (argWv m c) b (⟨1024 * kv.val + k.val, by omega⟩ : Fin 2048) o := by
  rw [vblk_apply]; exact qkv_v m ρ c b _ o

/-! ## The result array -/

theorem outsAt1_congr (V : (c : Dev nD) → (b : Ref sig .tc) → Buf (Elt Ideal) ((c : Thread nD τ).loc b)) (c : Dev nD)
    (n n' : ℕ) (h : n < cfg1.N) (h' : n' < cfg1.N) (e : n = n') : outsAt1 V c n h = outsAt1 V c n' h' := by
  subst e; rfl

/-- Row 512 qi + p of batch b, column o, of the kernel's result array. -/
theorem kernel_apply (c : Dev nD) (qi : Fin 4) (b : Fin 8) (p : Fin 512) (o : Fin 1024) :
    (((dat1 (V3 m ρ) c).arrAt 4 cfg1.N : Vec Ideal S8x2048x1024 .f32) (ix3 b (⟨512 * qi.val + p.val, by omega⟩ : Fin 2048) o) : EReal)
      = Spec.outK (argX m c) (argWq m c) (argWk m c) (argWv m c) (argBias m c) b (⟨512 * qi.val + p.val, by omega⟩ : Fin 2048) o := by
  rw [result_apply]
  have h1v : (pt qi b 1).val = 16 * qi.val + 2 * b.val + 1 := rfl
  have h0v : (pt qi b 0).val = 16 * qi.val + 2 * b.val + 0 := rfl
  have hB0 : ¬(pt qi b 1).val % 2 = 0 := by rw [h1v]; omega
  have hB1 : (pt qi b 1).val % 2 = 1 := by rw [h1v]; omega
  have hA0 : (pt qi b 0).val % 2 = 0 := by rw [h0v]; omega
  have hA1 : ¬(pt qi b 0).val % 2 = 1 := by rw [h0v]; omega
  rw [outsAt1_B (V3 m ρ) c (pt qi b 1) hB0 hB1]
  rw [outsAt1_congr (V3 m ρ) c ((pt qi b 1).val - 1) (pt qi b 0).val _ (pt qi b 0).isLt (by rw [h1v, h0v]; omega)]
  rw [outsAt1_A (V3 m ρ) c (pt qi b 0) hA0 hA1]
  dsimp only
  rw [out1_B_4_eq, sout1_A_0_eq, sout1_A_1_eq, sout1_A_2_eq]
  unfold Spec.outK
  refine flash_of_steps _ _ _ _ _ _ _ _ p o _ _ (fun k => ?_) (fun k => ?_) (fun k => ?_) (fun k => ?_)
  · rw [show lo k = (⟨1024 * (0 : Fin 2).val + k.val, by omega⟩ : Fin 2048) from Fin.ext (by simp [lo])]
    exact tileScore_eq m ρ c qi b 0 p k
  · rw [show hi k = (⟨1024 * (1 : Fin 2).val + k.val, by omega⟩ : Fin 2048) from Fin.ext (by simp [hi])]
    exact tileScore_eq m ρ c qi b 1 p k
  · rw [show lo k = (⟨1024 * (0 : Fin 2).val + k.val, by omega⟩ : Fin 2048) from Fin.ext (by simp [lo])]
    exact vblk_eq m ρ c qi b 0 k o
  · rw [show hi k = (⟨1024 * (1 : Fin 2).val + k.val, by omega⟩ : Fin 2048) from Fin.ext (by simp [hi])]
    exact vblk_eq m ρ c qi b 1 k o

end Cert.KernelIdeal.Hand

end
-- ==== Proof.Kb.Proj.lean ====
/-
  The projection region: one grid axis of 32 points; at point t the body reads rows 512 t .. 512 t + 511 of the
  flattened activations (a [512, 1024] block) and the whole stacked weight matrix [3072, 1024], multiplies the block
  with the transpose of the weights, and stores the [512, 3072] product as the block of the packed result.
  This module states what the body leaves in the result window's buffer, proves the body's triple, gives the region's
  proof data and discharges its body obligation, all at a parameter V: the buffer contents the region is entered from.
-/
import proofs.«406253_j51496657879663_3_alg».proof.Proof.Gen.Kernel.Launch
import proofs.«406253_j51496657879663_3_alg».proof.Proof.Gen.Kernel.Skeleton
import proofs.«406253_j51496657879663_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-- The result window's buffer after the body: the product of the activations' block with the transposed weights,
    stored whole. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- On whole staging memrefs, the inputs' at contents x0, x1 and the result's at anything, the body runs to the
    continuation holding the inputs' as they were and the result's at out0_2 x0 x1. -/
theorem sound_kernel0 (c : Dev nD) (E : Set ℕ) (i : grid0.Coords) (arg1 : Memref sig .tc .vmem S512x1024 .f32) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point t each input's buffer at its block and the result's at
    out0_2 of the two blocks; the class invariant (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kb.Chain.lean ====
/-
  The buffer contents at each boundary of the program's four items, as a fold from the launch memory: after the first
  host stretch (the weights scaled, stacked and narrowed; the activations flattened), after the projection region (its
  result array at what the region's write-backs leave, every other buffer as entered), after the second host stretch
  (the packed projections reshaped; the relative-position bias gathered).
-/
import proofs.«406253_j51496657879663_3_alg».proof.Proof.Kb.Proj

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

end Cert.Kernel.Hand

end
-- ==== Proof.Kb.AttnRuns.lean ====
/-
  The attention region: what its two control cases share. The grid is (query tile, batch, key half); the last
  coordinate decides the control: at the first key half the running maximum, denominator and numerator are reset before
  use and the result window is left alone; at the second they are carried over from the first and the result is stored.
  Here: the two conditions in closed form over the 64 points, where the result window is idle, the staging and scratch
  memrefs by name, and the region's class invariant with the three scratch buffers spelled out.
-/
import proofs.«406253_j51496657879663_3_alg».proof.Proof.Gen.Kernel.Launch
import proofs.«406253_j51496657879663_3_alg».proof.Proof.Gen.Kernel.Skeleton
import proofs.«406253_j51496657879663_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional (reset the running state): the key-half coordinate is 0. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (normalise and store the result): the key-half coordinate is 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the even points the result window is idle and is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At the odd points it is live. -/
theorem liveAt1_4_B : ∀ t : Fin cfg1.N, ¬cond1_0 (grid1.coords t) → cond1_1 (grid1.coords t) → cfg1.idle 4 (grid1.coords t) = false := by decide +kernel

/-! ## The memrefs by name -/

/-- One staging buffer of the result window, through which its contents are stated. -/
abbrev VO1_4 : View sig .tc .vmem S1x512x1024 .f32 := (Memref.whole cc1_stg4_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The three scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-! ## The class invariant, the scratch buffers spelled out -/

/-- What rides through this region beside the scratch buffers: the other region's staging buffers, each whole at some
    contents, and the generator register at some state; S is what the three scratch buffers hold. -/
def rideAlong (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S) ∗ (∃ r, prngReg c r))

/-- The class invariant of this region: the three scratch buffers at some contents beside what rides along. -/
theorem PhiA1_eq (c : Dev nD) :
    (Pipeline.ΦA spec1 c : sProp 𝕄)
      = rideAlong c iprop((∃ d, owns (c : Thread nD τ) scM1_0 fullShare d) ∗ (∃ d, owns (c : Thread nD τ) scM1_1 fullShare d)
          ∗ (∃ d, owns (c : Thread nD τ) scM1_2 fullShare d)) := by
  unfold Pipeline.ΦA rideAlong; rw [scopedRest1_eq]; simp only [scM1_0, scM1_1, scM1_2, owns_whole]; try rfl

end Cert.Kernel.Hand

end
-- ==== Proof.Kb.AttnRunA.lean ====
/-
  The attention body at a point of the first key half: the running state is reset, then one online-softmax step is
  taken from it; the result window is not touched. The run finds the pieces each scratch buffer ends with.
-/
import proofs.«406253_j51496657879663_3_alg».proof.Proof.Kb.AttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (the reset taken, the final store not taken): on whole memrefs — the four inputs at their contents, the result
    window's at contents xi4 handed back untouched, the three scratch buffers at anything — the body runs to the
    continuation holding the inputs as they were and each scratch buffer with its pieces written. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i)
    (x0 : Vec F S1x512x1024 .bf16) (x1 : Vec F S1x1024x1024 .bf16) (x2 : Vec F S1x1024x1024 .bf16) (x3 : Vec F S512x2048 .f32) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.Kb.AttnRunB.lean ====
/-
  The attention body at a point of the second key half: no reset; one online-softmax step is taken from the state the
  first half left, and the numerator divided by the denominator is stored into the result window. The run finds the
  pieces the result buffer and each scratch buffer end with.
-/
import proofs.«406253_j51496657879663_3_alg».proof.Proof.Kb.AttnRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (the reset not taken, the final store taken): on whole memrefs — the four inputs at their contents, the result
    window's at anything, the three scratch buffers at what the point before left (xs0, xs1, xs2) — the body runs to the
    continuation holding the inputs as they were, the result buffer and each scratch buffer with its pieces written. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i)
    (x0 : Vec F S1x512x1024 .bf16) (x1 : Vec F S1x1024x1024 .bf16) (x2 : Vec F S1x1024x1024 .bf16) (x3 : Vec F S512x2048 .f32)
    (xs0 : Vec F S512x1 .f32) (xs1 : Vec F S512x1 .f32) (xs2 : Vec F S512x1024 .f32) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Hand

end
-- ==== Proof.Kb.AttnOuts.lean ====
/-
  What each control case of the attention body leaves in the result window's buffer and in the three scratch buffers:
  the pieces its run found, read back over unspecified contents; each list of pieces covers its buffer, so the
  contents read back do not depend on what was there before.
-/
import proofs.«406253_j51496657879663_3_alg».proof.Proof.Kb.AttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first key half (case A): nothing stored into the result window; the three scratch buffers reset and updated -/

/-- Case A stores nothing into the result window: a placeholder nothing consults (the window is idle there and
    not written back). -/
def out1_A_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S1x512x1024 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 x0 x1 x2 x3).1)

theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1.Idx) : ∃ pc ∈ (kernelRun1_A c i arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.1 S512x1.size (by sl_kernel_rfl) y
/-- The running maximum after a first-half point. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1.Idx) : ∃ pc ∈ (kernelRun1_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.1 S512x1.size (by sl_kernel_rfl) y
/-- The running denominator after a first-half point. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) (y : S512x1024.Idx) : ∃ pc ∈ (kernelRun1_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3).2.2.2.1 S512x1024.size (by sl_kernel_rfl) y
/-- The running numerator after a first-half point. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S1x512x1024 .bf16) (x1 : Vec F S1x1024x1024 .bf16) (x2 : Vec F S1x1024x1024 .bf16) (x3 : Vec F S512x2048 .f32) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

/-! ## The second key half (case B): the scratch buffers updated from what the first half left, the result stored -/

theorem cover1_B_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S1x512x1024.Idx) : ∃ pc ∈ (kernelRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).1 S1x512x1024.size (by sl_kernel_rfl) y
/-- The result window's buffer after a second-half point. -/
def out1_B_4 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S1x512x1024 .f32 :=
  VO1_4.read (Elt F) (VO1_4.writes (Elt F) VO1_4.junk (kernelRun1_B c i arg3 harg3 arg4 harg4 arg5 harg5 arg6 harg6 arg7 harg7 arg8 harg8 arg9 harg9 arg10 harg10 hc0 hc1 x0 x1 x2 x3 xs0 xs1 xs2).1)

theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.1 S512x1.size (by sl_kernel_rfl) y
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S512x1.size (by sl_kernel_rfl) y
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) (y : S512x1024.Idx) : ∃ pc ∈ (kernelRun1_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 xs0 xs1 xs2).2.2.2.1 S512x1024.size (by sl_kernel_rfl) y
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x2048 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S1x512x1024 .bf16) (x1 : Vec F S1x1024x1024 .bf16) (x2 : Vec F S1x1024x1024 .bf16) (x3 : Vec F S512x2048 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

end Cert.Kernel.Hand

end
-- ==== Proof.Kb.Attn.lean ====
/-
  The attention region's proof data and body obligation, at a parameter V (the buffer contents the region is entered
  from). After each point the result window's buffer and the three scratch buffers hold what the point's control case
  leaves: at a first-half point the reset state advanced by one online-softmax step over the point's blocks; at a
  second-half point the state the point before left advanced by one step, and the normalised numerator in the result
  buffer. The invariant carries the three scratch buffers at these contents from a point to the next.
-/
import proofs.«406253_j51496657879663_3_alg».proof.Proof.Kb.AttnOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the result buffer and the scratch buffers hold after each point -/

/-- After the body at position n: (the result window's buffer, the running maximum, the running denominator, the
    running numerator). An even position is a first-half point (the state reset, then one step); an odd position a
    second-half point (one step from what position n - 1 left, and the result stored). -/
def outsAt1 (c : Dev nD) : (n : ℕ) → n < cfg1.N → Vec F S1x512x1024 .f32 × Vec F S512x1 .f32 × Vec F S512x1 .f32 × Vec F S512x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      if h1 : (n + 1) % 2 = 1 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 2 = 1 then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by omega)

/-- At a first-half point: the reset case's contents. -/
theorem outsAt1_A (c : Dev nD) (t : Fin cfg1.N) (h0 : t.val % 2 = 0) (h1 : ¬t.val % 2 = 1) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a second-half point: the carried case's contents, over what the point before left. -/
theorem outsAt1_B (c : Dev nD) (t : Fin cfg1.N) (h0 : ¬t.val % 2 = 0) (h1 : t.val % 2 = 1) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry the class invariant (every scratch buffer at anything); afterwards the three
    scratch buffers at what the point before left, beside what rides along. -/
def PhiS1 (c : Dev nD) : (n : ℕ) → n ≤ cfg1.N → sProp 𝕄
  | 0, _ => Pipeline.ΦA spec1 c
  | n + 1, hn => rideAlong c iprop(owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rideAlong c iprop(owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2)) := rfl

theorem PhiS1_pos (c : Dev nD) (n : ℕ) (h : n ≤ cfg1.N) (hz : n ≠ 0) :
    PhiS1 V c n h = rideAlong c iprop(owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2)) := by
  cases n with
  | zero => exact absurd rfl hz
  | succ n => rfl

/-! ## The proof data -/

/-- The arrays as the region finds them; after the body at point t each input's buffer at its block and the result's at
    outsAt1's first component; the invariant PhiS1; nothing owed. The three windows that read the packed projections hold
    their common array at three shares that make the whole; the bias and the result arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the parity of the point says which control case it is
    in; the invariant hands the body the scratch buffers (at anything at the very first point, else at what the point
    before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · have h1 : ¬t.val % 2 = 1 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS1_castSucc V c t, PhiS1_zero V c _ _ hz, PhiA1_eq]
      iintro ⟨HΦ, Ho, ⟨%d0, H0⟩, ⟨%d1, H1⟩, ⟨%d2, H2⟩, ⟨%d3, H3⟩, ⟨%d4, H4⟩⟩
      unfold rideAlong
      icases HΦ with ⟨⟨He0, He1, He2, He3, He4, HS0, HS1, HS2⟩, Hg⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [He0 He1 He2 He3 He4 HS0 HS1 HS2 Hg]
      · isplitr [Hg]
        swap; · iexact Hg
        isplitl [He0]; · iexact He0
        isplitl [He1]; · iexact He1
        isplitl [He2]; · iexact He2
        isplitl [He3]; · iexact He3
        isplitl [He4]; · iexact He4
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      unfold rideAlong
      icases HΦ with ⟨⟨He0, He1, He2, He3, He4, HS0, HS1, HS2⟩, Hg⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [He0 He1 He2 He3 He4 HS0 HS1 HS2 Hg]
      · isplitr [Hg]
        swap; · iexact Hg
        isplitl [He0]; · iexact He0
        isplitl [He1]; · iexact He1
        isplitl [He2]; · iexact He2
        isplitl [He3]; · iexact He3
        isplitl [He4]; · iexact He4
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1)], after1_4]
    rw [outsAt1_B V c t h0 h1]
    unfold out1_B_4 sout1_B_0 sout1_B_1 sout1_B_2; (try dsimp only)
    rw [PhiS1_castSucc V c t, PhiS1_pos V c _ _ hz]
    iintro ⟨HΦ, Ho, ⟨%d0, H0⟩, ⟨%d1, H1⟩, ⟨%d2, H2⟩, ⟨%d3, H3⟩, ⟨%d4, H4⟩⟩
    unfold rideAlong
    icases HΦ with ⟨⟨He0, He1, He2, He3, He4, HS0, HS1, HS2⟩, Hg⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [He0 He1 He2 He3 He4 HS0 HS1 HS2 Hg]
    · isplitr [Hg]
      swap; · iexact Hg
      isplitl [He0]; · iexact He0
      isplitl [He1]; · iexact He1
      isplitl [He2]; · iexact He2
      isplitl [He3]; · iexact He3
      isplitl [He4]; · iexact He4
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch buffers' named contents are
    forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rideAlong
  iintro ⟨⟨He0, He1, He2, He3, He4, HS0, HS1, HS2⟩, Hg⟩
  isplitr [Hg]
  swap; · iexact Hg
  isplitl [He0]; · iexact He0
  isplitl [He1]; · iexact He1
  isplitl [He2]; · iexact He2
  isplitl [He3]; · iexact He3
  isplitl [He4]; · iexact He4
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi1_out V c _ (by rw [Fin.val_last]; have : cfg1.N = 64 := N_1; omega)

end Cert.Kernel.Hand

end
-- ==== Proof.Kb.Shares.lean ====
/-
  The attention region's arrays against the core's unscoped buffers. Three of the region's windows read ONE array (the
  packed projections), so the region holds that array as three shares that make the whole, one per window, and the bias
  and the result arrays whole. Entering the region: the unscoped buffers at contents V split into the region's arrays at
  their entry contents and the rest. Leaving it: the arrays at their final contents (the inputs as entered, the result at
  what the write-backs left) and the rest join into the unscoped buffers at contents that differ from V at the result only.
-/
import proofs.«406253_j51496657879663_3_alg».proof.Proof.Kb.Attn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's five windows: three distinct ones. -/
private theorem img1 : (Finset.univ.image (Pipeline.arrRef spec1) : Finset (Ref sig .tc)) = {main_v6, main_v17, main_v18} := by decide

/-- The unscoped buffers at any contents are the buffers behind the region's windows and the rest; the windows' arrays
    need not be distinct, only unscoped. -/
private theorem split1 (c : Dev nD) (W : (b : Ref sig .tc) → Buf (Elt F) ((c : Thread nD τ).loc b)) :
    (unscopedBufs c W : sProp 𝕄) = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The buffers behind the windows, one by one: the packed projections, the bias, the result. -/
private theorem arrBufs1_eq (c : Dev nD) (W : (b : Ref sig .tc) → Buf (Elt F) ((c : Thread nD τ).loc b)) :
    (Pipeline.arrBufs spec1 c W : sProp 𝕄) = iprop((((c : Thread nD τ).loc main_v6) ↦{fullShare} W main_v6)
      ∗ (((c : Thread nD τ).loc main_v17) ↦{fullShare} W main_v17)
      ∗ (((c : Thread nD τ).loc main_v18) ↦{fullShare} W main_v18)) := by
  unfold Pipeline.arrBufs
  rw [img1, bigSep_insert (by decide), bigSep_insert (by decide), bigSep_singleton]
  rfl

private theorem share1_0 (c : Dev nD) : (dat1 V c).share 0 = fullShare.left := rfl
private theorem share1_1 (c : Dev nD) : (dat1 V c).share 1 = fullShare.right.left := rfl
private theorem share1_2 (c : Dev nD) : (dat1 V c).share 2 = fullShare.right.right := rfl
private theorem share1_3 (c : Dev nD) : (dat1 V c).share 3 = fullShare := rfl
private theorem share1_4 (c : Dev nD) : (dat1 V c).share 4 = fullShare := rfl

/-- The region's arrays window by window: every array is a whole buffer; the three windows on the packed projections
    hold it at the left half, and at the two halves of the right half, of the full share. -/
private theorem arrays1_eq (c : Dev nD) (G : (w : Fin cfg1.W) → Buf (Elt F) ((cfg1.win w).arr.view.loc (c : Thread nD τ))) :
    ((dat1 V c).arrays G : sProp 𝕄) = iprop((((c : Thread nD τ).loc main_v6) ↦{fullShare.left} G 0)
      ∗ (((c : Thread nD τ).loc main_v6) ↦{fullShare.right.left} G 1)
      ∗ (((c : Thread nD τ).loc main_v6) ↦{fullShare.right.right} G 2)
      ∗ (((c : Thread nD τ).loc main_v17) ↦{fullShare} G 3)
      ∗ (((c : Thread nD τ).loc main_v18) ↦{fullShare} G 4)) := by
  unfold Dat.arrays
  rw [bigSep_W1, (arr_whole1 0).set_eq_univ, (arr_whole1 3).set_eq_univ, (arr_whole1 4).set_eq_univ,
    share1_0, share1_1, share1_2, share1_3, share1_4]

/-- A buffer held whole is held at the left half of the full share and at the two halves of the right half. -/
private theorem pointsTo_thirds {ℓ : Loc nD τ sig} (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  (pointsTo_share (PosShare.mem_left_op_right fullShare)).trans
    (sep_congr_right (pointsTo_share (PosShare.mem_left_op_right fullShare.right)))

/-- Entering: the unscoped buffers at V are the region's arrays at their entry contents and the buffers that are no array
    of the region. -/
theorem arrays_of_bufs1 (c : Dev nD) :
    (unscopedBufs c (V c) : sProp 𝕄) ⊢ iprop((dat1 V c).arrays ((dat1 V c).arrAt · 0) ∗ Pipeline.unscopedRest spec1 c (V c)) := by
  rw [split1 c (V c), arrBufs1_eq, arrays1_eq]
  refine sep_mono ?_ .rfl
  -- every window's entry contents is V's at its array; the packed projections' buffer splits into the three shares
  exact (sep_mono_left (pointsTo_thirds (V c main_v6)).1).trans (sep_assoc.1.trans (sep_mono_right sep_assoc.1))

/-- Leaving: the arrays at their final contents and the other buffers as entered are the unscoped buffers at any contents
    V' that hold the result array's final contents at the result and V's elsewhere. -/
theorem bufs_of_arrays1 (c : Dev nD) (V' : (b : Ref sig .tc) → Buf (Elt F) ((c : Thread nD τ).loc b))
    (h18 : V' main_v18 = (dat1 V c).arrAt 4 cfg1.N) (hrest : ∀ b, b ≠ main_v18 → V' b = V c b) :
    iprop((dat1 V c).arrays ((dat1 V c).arrAt · cfg1.N) ∗ Pipeline.unscopedRest spec1 c (V c)) ⊢ (unscopedBufs c V' : sProp 𝕄) := by
  -- an input window's array is never written: its final contents is its entry contents, V's, which is V''s off the result
  have e0 : (dat1 V c).arrAt 0 cfg1.N = V' main_v6 := ((dat1 V c).arrAt_in 0 rfl _).trans (hrest main_v6 (by decide)).symm
  have e1 : (dat1 V c).arrAt 1 cfg1.N = V' main_v6 := ((dat1 V c).arrAt_in 1 rfl _).trans (hrest main_v6 (by decide)).symm
  have e2 : (dat1 V c).arrAt 2 cfg1.N = V' main_v6 := ((dat1 V c).arrAt_in 2 rfl _).trans (hrest main_v6 (by decide)).symm
  have e3 : (dat1 V c).arrAt 3 cfg1.N = V' main_v17 := ((dat1 V c).arrAt_in 3 rfl _).trans (hrest main_v17 (by decide)).symm
  -- the rest holds no array of the region, so not the result
  have hR : (Pipeline.unscopedRest spec1 c (V c) : sProp 𝕄) = Pipeline.unscopedRest spec1 c V' := by
    unfold Pipeline.unscopedRest
    refine bigSep_congr fun b hb => ?_
    have hb' : b ≠ main_v18 := fun h => (Finset.mem_sdiff.mp hb).2 (by rw [h, img1]; decide)
    rw [hrest b hb']
  rw [split1 c V', arrBufs1_eq, arrays1_eq, hR]
  refine sep_mono ?_ .rfl
  show iprop((((c : Thread nD τ).loc main_v6) ↦{fullShare.left} (dat1 V c).arrAt 0 cfg1.N)
      ∗ (((c : Thread nD τ).loc main_v6) ↦{fullShare.right.left} (dat1 V c).arrAt 1 cfg1.N)
      ∗ (((c : Thread nD τ).loc main_v6) ↦{fullShare.right.right} (dat1 V c).arrAt 2 cfg1.N)
      ∗ (((c : Thread nD τ).loc main_v17) ↦{fullShare} (dat1 V c).arrAt 3 cfg1.N)
      ∗ (((c : Thread nD τ).loc main_v18) ↦{fullShare} (dat1 V c).arrAt 4 cfg1.N)) ⊢ _
  rw [e0, e1, e2, e3, ← h18]
  -- the three shares of the packed projections' buffer join into the whole
  exact (sep_mono_right sep_assoc.2).trans (sep_assoc.2.trans (sep_mono_left (pointsTo_thirds (V' main_v6)).2))

end Cert.Kernel.Hand

end
-- ==== Proof.Kb.Run.lean ====
/-
  The whole program as four items in order — a host stretch, the projection region, a host stretch, the attention region —
  launched over the buffer contents of Chain.lean: every weakly fair execution terminates, nothing faulting, with the
  result array at what the attention region's write-backs leave and every argument array as launched. Each region is
  entered from "every unscoped buffer at the boundary's contents, the generator register at some state, nothing owed" and
  left at the same with its result array updated; the attention region holds the packed projections as three shares.
-/
import proofs.«406253_j51496657879663_3_alg».proof.Proof.Kb.Chain
import proofs.«406253_j51496657879663_3_alg».proof.Proof.Kb.Shares
import proofs.«406253_j51496657879663_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The attention region's exit contents -/

/-- At the attention region's exit: its result array at what the pipeline leaves, every other buffer as entered. -/
def W4 (c : Dev nD) : Valuation τ sig (Elt F) :=
  Function.update (W3 m ρ c) (Proc.devRef .tc main_v18) ((dat1 (V3 m ρ) c).arrAt 4 cfg1.N)
theorem W4_main_v18 (c : Dev nD) : W4 m ρ c (Proc.devRef .tc main_v18) = (dat1 (V3 m ρ) c).arrAt 4 cfg1.N := by
  unfold W4; exact Function.update_self _ _ _
theorem W4_of_ne (c : Dev nD) (b : Ref sig .tc) (hb : b ≠ main_v18) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. Its arrays are sorted out of the unscoped
    buffers with the packed projections split into three shares, and joined back at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_bufs1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    rw [Pipeline.ownSems0_none]
    have h := hout1 (V3 m ρ) c
    unfold Pipeline.ΦA at h
    rw [show (pdats m ρ 1 c).Φ (Fin.last _) = (dat1 (V3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      bufs_of_arrays1 (V3 m ρ) c (V4 m ρ c) (W4_main_v18 m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final memory holds the result array at what the attention region's write-backs leave and every argument as launched. -/
theorem run_main : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.Ref.lean ====
/-
  The reference program's result, one entry at a time, is the specification's one-pass attention entry: three linear
  layers with transposed weights, the scores contracted over the feature axis and divided by 32, the gathered
  relative-position bias added, the maximum over the keys subtracted, exponentials normalised by their sum, and the
  weights contracted with the values.
-/
import proofs.«406253_j51496657879663_3_alg».proof.Proof.Gen.ReferenceIdeal.Read
import proofs.«406253_j51496657879663_3_alg».proof.Proof.Spec
import proofs.«406253_j51496657879663_3_alg».proof.Proof.Consts
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Hand
open scoped BigOperators

/-! ### The composed index maps at explicit coordinates -/

private theorem lidx0 (b : Fin 8) (r : Fin 2048) (o f : Fin 1024) : lidx_main_v0 (ix3 b r o) f = ix3 b r f :=
  funext fun a => Fin.ext (by match a with | ⟨0, _⟩ => rfl | ⟨1, _⟩ => rfl | ⟨2, _⟩ => rfl)
private theorem ridx0 (b : Fin 8) (r : Fin 2048) (o f : Fin 1024) : ridx_main_v0 (ix3 b r o) f = ix2 o f :=
  funext fun a => Fin.ext (by match a with | ⟨0, _⟩ => rfl | ⟨1, _⟩ => rfl)
private theorem lidx1 (b : Fin 8) (r : Fin 2048) (o f : Fin 1024) : lidx_main_v1 (ix3 b r o) f = ix3 b r f :=
  funext fun a => Fin.ext (by match a with | ⟨0, _⟩ => rfl | ⟨1, _⟩ => rfl | ⟨2, _⟩ => rfl)
private theorem ridx1 (b : Fin 8) (r : Fin 2048) (o f : Fin 1024) : ridx_main_v1 (ix3 b r o) f = ix2 o f :=
  funext fun a => Fin.ext (by match a with | ⟨0, _⟩ => rfl | ⟨1, _⟩ => rfl)
private theorem lidx2 (b : Fin 8) (r : Fin 2048) (o f : Fin 1024) : lidx_main_v2 (ix3 b r o) f = ix3 b r f :=
  funext fun a => Fin.ext (by match a with | ⟨0, _⟩ => rfl | ⟨1, _⟩ => rfl | ⟨2, _⟩ => rfl)
private theorem ridx2 (b : Fin 8) (r : Fin 2048) (o f : Fin 1024) : ridx_main_v2 (ix3 b r o) f = ix2 o f :=
  funext fun a => Fin.ext (by match a with | ⟨0, _⟩ => rfl | ⟨1, _⟩ => rfl)
private theorem lidx3 (b : Fin 8) (r k : Fin 2048) (o : Fin 1024) : lidx_main_v3 (ix3 b r k) o = ix3 b r o :=
  funext fun a => Fin.ext (by match a with | ⟨0, _⟩ => rfl | ⟨1, _⟩ => rfl | ⟨2, _⟩ => rfl)
private theorem ridx3 (b : Fin 8) (r k : Fin 2048) (o : Fin 1024) : ridx_main_v3 (ix3 b r k) o = ix3 b k o :=
  funext fun a => Fin.ext (by match a with | ⟨0, _⟩ => rfl | ⟨1, _⟩ => rfl | ⟨2, _⟩ => rfl)
private theorem idx1718 (b : Fin 8) (r k : Fin 2048) : idx_main_v17 (idx_main_v18 (ix3 b r k)) = ix2 r k :=
  funext fun a => Fin.ext (by match a with | ⟨0, _⟩ => rfl | ⟨1, _⟩ => rfl)
private theorem idx2324 (b : Fin 8) (r k : Fin 2048) : idx_main_v23 (idx_main_v24 (ix3 b r k)) = ix2 b r :=
  funext fun a => Fin.ext (by match a with | ⟨0, _⟩ => rfl | ⟨1, _⟩ => rfl)
private theorem idx27 (b : Fin 8) (r k : Fin 2048) : idx_main_v27 (ix2 b r) k = ix3 b r k :=
  funext fun a => Fin.ext (by match a with | ⟨0, _⟩ => rfl | ⟨1, _⟩ => rfl | ⟨2, _⟩ => rfl)
private theorem idx2829 (b : Fin 8) (r k : Fin 2048) : idx_main_v28 (idx_main_v29 (ix3 b r k)) = ix2 b r :=
  funext fun a => Fin.ext (by match a with | ⟨0, _⟩ => rfl | ⟨1, _⟩ => rfl)
private theorem lidx31 (b : Fin 8) (r : Fin 2048) (o : Fin 1024) (k : Fin 2048) : lidx_main_v31 (ix3 b r o) k = ix3 b r k :=
  funext fun a => Fin.ext (by match a with | ⟨0, _⟩ => rfl | ⟨1, _⟩ => rfl | ⟨2, _⟩ => rfl)
private theorem ridx31 (b : Fin 8) (r : Fin 2048) (o : Fin 1024) (k : Fin 2048) : ridx_main_v31 (ix3 b r o) k = ix3 b k o :=
  funext fun a => Fin.ext (by match a with | ⟨0, _⟩ => rfl | ⟨1, _⟩ => rfl | ⟨2, _⟩ => rfl)

/-- The reduced index (b, r) with key k put back on the last axis is (b, r, k). -/
private theorem lift_ix (h : S8x2048x2048.Reduces [2] S8x2048) (b : Fin 8) (r : Fin 2048) (k : Fin (S8x2048x2048.size 2)) :
    h.lift (ix2 b r) k = ix3 b r (⟨k.val, k.isLt⟩ : Fin 2048) :=
  funext fun a => Fin.ext (by match a with | ⟨0, _⟩ => rfl | ⟨1, _⟩ => rfl | ⟨2, _⟩ => rfl)

/-! ### The three linear layers -/

/-- Operation 0: a linear layer with transposed weights. -/
private theorem q_apply (x0 : (⟨S8x2048x1024, .f32⟩ : BufTy).Contents (Elt Ideal)) (x1 : (⟨S1024x1024, .f32⟩ : BufTy).Contents (Elt Ideal)) (b : Fin 8) (r : Fin 2048) (o : Fin 1024) :
    (val_main_v0 (F := Ideal) x0 x1 (ix3 b r o) : EReal) = Spec.proj x0 x1 b r o := by
  rw [val_main_v0_apply]
  unfold Spec.proj
  exact Finset.sum_congr rfl fun f _ => by rw [lidx0, ridx0]

/-- Operation 1: a linear layer with transposed weights. -/
private theorem k_apply (x0 : (⟨S8x2048x1024, .f32⟩ : BufTy).Contents (Elt Ideal)) (x2 : (⟨S1024x1024, .f32⟩ : BufTy).Contents (Elt Ideal)) (b : Fin 8) (r : Fin 2048) (o : Fin 1024) :
    (val_main_v1 (F := Ideal) x0 x2 (ix3 b r o) : EReal) = Spec.proj x0 x2 b r o := by
  rw [val_main_v1_apply]
  unfold Spec.proj
  exact Finset.sum_congr rfl fun f _ => by rw [lidx1, ridx1]

/-- Operation 2: a linear layer with transposed weights. -/
private theorem v_apply (x0 : (⟨S8x2048x1024, .f32⟩ : BufTy).Contents (Elt Ideal)) (x3 : (⟨S1024x1024, .f32⟩ : BufTy).Contents (Elt Ideal)) (b : Fin 8) (r : Fin 2048) (o : Fin 1024) :
    (val_main_v2 (F := Ideal) x0 x3 (ix3 b r o) : EReal) = Spec.proj x0 x3 b r o := by
  rw [val_main_v2_apply]
  unfold Spec.proj
  exact Finset.sum_congr rfl fun f _ => by rw [lidx2, ridx2]

/-! ### The score -/

/-- Operation 3: the queries contracted with the keys over the feature axis. -/
private theorem qk_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (b : Fin 8) (r k : Fin 2048) :
    (val_main_v3 (F := Ideal) x0 x1 x2 (ix3 b r k) : EReal)
      = ∑ o : Fin 1024, Spec.proj x0 x1 b r o * Spec.proj x0 x2 b k o := by
  rw [val_main_v3_apply]
  exact Finset.sum_congr rfl fun o _ => by rw [lidx3, ridx3, q_apply, k_apply]

/-- Operations 4 and 5: the division by the constant 32. -/
private theorem scaled_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (b : Fin 8) (r k : Fin 2048) :
    (val_main_v5 (F := Ideal) x0 x1 x2 (ix3 b r k) : EReal)
      = Ideal.div (∑ o : Fin 1024, Spec.proj x0 x1 b r o * Spec.proj x0 x2 b k o) ((32 : ℝ) : EReal) := by
  rw [val_main_v5_apply, val_main_v4_apply, val_main_cst_apply, qk_apply, Ideal.hostDivf_def, Ideal.ofBits_def,
    Consts.ofBits_32]

/-- Operations 17 and 18: the gathered bias matrix broadcast over the batch. -/
private theorem bias_apply (x4 : (⟨S2048x1, .f32⟩ : BufTy).Contents (Elt Ideal)) (x5 : (⟨S2048x2048, .i32⟩ : BufTy).Contents (Elt Ideal)) (b : Fin 8) (r k : Fin 2048) :
    (val_main_v18 (F := Ideal) x4 x5 (ix3 b r k) : EReal) = val_main_v16 (F := Ideal) x4 x5 (ix2 r k) := by
  rw [val_main_v18_apply, val_main_v17_apply, idx1718]

/-- Operation 19: the score. -/
private theorem score_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r k : Fin 2048) :
    (val_main_v19 (F := Ideal) x0 x1 x2 x4 x5 (ix3 b r k) : EReal)
      = Spec.scoreR x0 x1 x2 (val_main_v16 (F := Ideal) x4 x5) b r k := by
  rw [val_main_v19_apply, scaled_apply, bias_apply, Ideal.addf_def]
  rfl

/-! ### The row maximum -/

/-- Operation 20: the maximum of a row of scores, from minus infinity. -/
private theorem rowmax_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r : Fin 2048) :
    (val_main_v20 (F := Ideal) x0 x1 x2 x4 x5 (ix2 b r) : EReal)
      = Flash.rowMax (Spec.scoreR x0 x1 x2 (val_main_v16 (F := Ideal) x4 x5) b r) := by
  have hR : S8x2048x2048.Reduces [2] S8x2048 := by decide
  have hf : (val_main_v19 (F := Ideal) x0 x1 x2 x4 x5 ∘ hR.lift (ix2 b r))
      = Spec.scoreR x0 x1 x2 (val_main_v16 (F := Ideal) x4 x5) b r :=
    funext fun k => by rw [Function.comp_apply, lift_ix, score_apply]; rfl
  unfold val_main_v20
  rw [Host.reduce_eq_fold_single FloatOps.maximumf _ _ reducesTo_S8x2048x2048_S8x2048_d2 hR h_S_, hf,
    val_main_cst_2_apply, Ideal.ofBits_def, Consts.ofBits_neg_inf]
  rfl

/-- Operations 21 and 22: the maximum once more against minus infinity. -/
private theorem max_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r : Fin 2048) :
    (val_main_v22 (F := Ideal) x0 x1 x2 x4 x5 (ix2 b r) : EReal)
      = Flash.refMax (Spec.scoreR x0 x1 x2 (val_main_v16 (F := Ideal) x4 x5) b r) := by
  rw [val_main_v22_apply, val_main_v21_apply, val_main_cst_3_apply, rowmax_apply, Ideal.maximumf_def, Ideal.ofBits_def,
    Consts.ofBits_neg_inf]
  rfl

/-- Operations 23 and 24: the maximum broadcast back over the keys. -/
private theorem maxb_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r k : Fin 2048) :
    (val_main_v24 (F := Ideal) x0 x1 x2 x4 x5 (ix3 b r k) : EReal)
      = Flash.refMax (Spec.scoreR x0 x1 x2 (val_main_v16 (F := Ideal) x4 x5) b r) := by
  rw [val_main_v24_apply, val_main_v23_apply, idx2324, max_apply]

/-! ### The exponentials and their sum -/

/-- Operations 25 and 26: the exponential of the score less the row maximum. -/
private theorem exp_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r k : Fin 2048) :
    (val_main_v26 (F := Ideal) x0 x1 x2 x4 x5 (ix3 b r k) : EReal)
      = Ideal.exp (Spec.scoreR x0 x1 x2 (val_main_v16 (F := Ideal) x4 x5) b r k
          - Flash.refMax (Spec.scoreR x0 x1 x2 (val_main_v16 (F := Ideal) x4 x5) b r)) := by
  rw [val_main_v26_apply, val_main_v25_apply, score_apply, maxb_apply, Ideal.hostUnary_exp_def, Ideal.subf_def]

/-- Operation 27: the sum of a row of exponentials, from zero. -/
private theorem den_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r : Fin 2048) :
    (val_main_v27 (F := Ideal) x0 x1 x2 x4 x5 (ix2 b r) : EReal)
      = Flash.refDen (Spec.scoreR x0 x1 x2 (val_main_v16 (F := Ideal) x4 x5) b r) := by
  rw [val_main_v27_apply, val_main_cst_4_apply, Ideal.ofBits_def, Consts.ofBits_zero]
  unfold Flash.refDen
  exact congrArg (fun t : EReal => 0 + t) (Finset.sum_congr rfl fun k _ => by rw [idx27, exp_apply])

/-- Operations 28 and 29: the sum broadcast back over the keys. -/
private theorem denb_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r k : Fin 2048) :
    (val_main_v29 (F := Ideal) x0 x1 x2 x4 x5 (ix3 b r k) : EReal)
      = Flash.refDen (Spec.scoreR x0 x1 x2 (val_main_v16 (F := Ideal) x4 x5) b r) := by
  rw [val_main_v29_apply, val_main_v28_apply, idx2829, den_apply]

/-- Operation 30: the normalised weight. -/
private theorem weight_apply (x0 : (⟨S8x2048x1024, .f32⟩ : BufTy).Contents (Elt Ideal)) (x1 : (⟨S1024x1024, .f32⟩ : BufTy).Contents (Elt Ideal)) (x2 : (⟨S1024x1024, .f32⟩ : BufTy).Contents (Elt Ideal)) (x4 : (⟨S2048x1, .f32⟩ : BufTy).Contents (Elt Ideal)) (x5 : (⟨S2048x2048, .i32⟩ : BufTy).Contents (Elt Ideal)) (b : Fin 8) (r k : Fin 2048) :
    (val_main_v30 (F := Ideal) x0 x1 x2 x4 x5 (ix3 b r k) : EReal)
      = Ideal.div (Ideal.exp (Spec.scoreR x0 x1 x2 (val_main_v16 (F := Ideal) x4 x5) b r k
            - Flash.refMax (Spec.scoreR x0 x1 x2 (val_main_v16 (F := Ideal) x4 x5) b r)))
          (Flash.refDen (Spec.scoreR x0 x1 x2 (val_main_v16 (F := Ideal) x4 x5) b r)) := by
  rw [val_main_v30_apply, exp_apply, denb_apply, Ideal.hostDivf_def]

/-! ### The result -/

/-- The reference's result at (b, r, o), as a function of its six arguments, is the specification's entry, the bias
    being the reference's own gathered matrix. -/
theorem ref_apply (x0 : (⟨S8x2048x1024, .f32⟩ : BufTy).Contents (Elt Ideal)) (x1 x2 x3 : (⟨S1024x1024, .f32⟩ : BufTy).Contents (Elt Ideal))
    (x4 : (⟨S2048x1, .f32⟩ : BufTy).Contents (Elt Ideal)) (x5 : (⟨S2048x2048, .i32⟩ : BufTy).Contents (Elt Ideal))
    (b : Fin 8) (r : Fin 2048) (o : Fin 1024) :
    (val_main_v31 (F := Ideal) x0 x1 x2 x3 x4 x5 (ix3 b r o) : EReal)
      = Spec.outR x0 x1 x2 x3 (val_main_v16 (F := Ideal) x4 x5) b r o := by
  rw [val_main_v31_apply]
  unfold Spec.outR Flash.refOut
  exact Finset.sum_congr rfl fun k _ => by rw [lidx31, ridx31, weight_apply, v_apply]

end Cert.ReferenceIdeal.RefValue

end
-- ==== Proof.Finite.lean ====
/-
  The precondition read at the ideal values: the printed predicate is the conjunction, over the five float arguments, of
  "every entry has absolute value below +∞"; if it is all ones, every entry of every float argument is a real number.
-/
import proofs.«406253_j51496657879663_3_alg».proof.Proof.Gen.Pre_finite_inputs
import proofs.«406253_j51496657879663_3_alg».proof.Proof.LibERealSage
import Idealize.ShloMosaic.PureOps.Ideal.Laws
import Idealize.ShloMosaic.Lib.ReduceAll
import Idealize.ShloMosaic.Lib.ValueIdx

set_option maxRecDepth 16384

noncomputable section

namespace Cert.Hand.Finite

open Idealize.ShloMosaic Cert.Pre_finite_inputs Cert.LibERealSage

/-- The rank-0 shape has one index. -/
private instance subsingleton_S_ : Subsingleton S_.Idx := ⟨fun _ _ => funext fun d => d.elim0⟩

/-- The bit pattern of the broadcast bound is +∞. -/
private theorem ofBits_inf : Ideal.ofBits .f32 0x7F800000#32 = (⊤ : EReal) := by
  simp [Ideal.ofBits, Ideal.ieee]

/-- An extended real whose absolute value max x (-x) compares strictly below +∞ is neither infinity. -/
private theorem isReal_of_abs_lt_top (x : EReal) (h : Ideal.cmp .olt (max x (-x)) ⊤ = 1#1) : IsReal x := by
  have hlt : max x (-x) < ⊤ := by
    by_contra hn
    simp [Ideal.cmp, hn] at h
  rw [max_lt_iff] at hlt
  rw [isReal_iff]
  refine ⟨hlt.1.ne, ?_⟩
  rintro rfl
  simp at hlt

/-- One argument's conjunct: if the "and" over all axes of "|x| < +∞" is one, every entry of x is real. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    ∀ i, IsReal (x i : EReal) := by
  intro i
  have hi := Host.reduce_andi_all _ _ hr hu _ e i
  refine isReal_of_abs_lt_top (x i) ?_
  rw [← ofBits_inf]
  exact hi

/-- If the precondition holds of the six arguments, the five float arguments are real everywhere. -/
theorem real_of_pre [Cert.Pre_finite_inputs.Facts]
    (x0 : FVec Ideal S8x2048x1024 .f32) (x1 x2 x3 : FVec Ideal S1024x1024 .f32) (x4 : FVec Ideal S2048x1 .f32) (x5 : IVec S2048x2048 32)
    (h : Cert.Pre_finite_inputs.fn (F := Ideal) x0 x1 x2 x3 x4 x5 = fun _ => 1#1) :
    (∀ i, IsReal (x0 i : EReal)) ∧ (∀ i, IsReal (x1 i : EReal)) ∧ (∀ i, IsReal (x2 i : EReal)) ∧ (∀ i, IsReal (x3 i : EReal))
      ∧ (∀ i, IsReal (x4 i : EReal)) := by
  have e := congrFun h ValueIdx.ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨real_of_all x0 _ _ _ h0, real_of_all x1 _ _ _ h1, real_of_all x2 _ _ _ h2, real_of_all x3 _ _ _ h3,
    real_of_all x4 _ _ _ h4⟩

end Cert.Hand.Finite

end
-- ==== Proof.Final.lean ====
/-
  The five claims. The two kernel programs run to the end with their arguments unchanged (the launch over the four items);
  the reference's frame is its run with the result dropped; the idealization rewrote nothing. For the equivalence: the
  kernel's result array, entry by entry, is the two-pass attention entry of the specification; the reference's is the
  one-pass entry; on real inputs (the precondition) the two agree, the bias being one host computation in both programs.
-/
import proofs.«406253_j51496657879663_3_alg».proof.Defs
import proofs.«406253_j51496657879663_3_alg».proof.Proof.Ki.Run
import proofs.«406253_j51496657879663_3_alg».proof.Proof.Ki.KernelValue
import proofs.«406253_j51496657879663_3_alg».proof.Proof.Kb.Run
import proofs.«406253_j51496657879663_3_alg».proof.Proof.Ref
import proofs.«406253_j51496657879663_3_alg».proof.Proof.Finite
import proofs.«406253_j51496657879663_3_alg».proof.Proof.Gen.Kernel
import proofs.«406253_j51496657879663_3_alg».proof.Proof.Gen.KernelIdeal
import proofs.«406253_j51496657879663_3_alg».proof.Proof.Gen.ReferenceIdeal
import proofs.«406253_j51496657879663_3_alg».proof.Proof.Gen.Pre_finite_inputs

set_option maxRecDepth 16384

noncomputable section

namespace Cert.Proof.Parts

open Idealize.ShloMosaic Idealize.ShloMosaic.TcCoe Idealize.SL.Sem Idealize.ShloMosaic.ValueIdx
open Cert.Hand Cert.LibERealSage

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The bias is one host computation: the kernel program's term is the reference's. -/
theorem bias_same (x4 : (⟨Cert.KernelIdeal.S2048x1, .f32⟩ : BufTy).Contents (Elt Ideal))
    (x5 : (⟨Cert.KernelIdeal.S2048x2048, .i32⟩ : BufTy).Contents (Elt Ideal)) :
    Cert.KernelIdeal.Hand.biasK x4 x5 = Cert.ReferenceIdeal.Read.val_main_v16 (F := Ideal) x4 x5 := by
  unfold Cert.KernelIdeal.Hand.biasK Cert.ReferenceIdeal.Read.val_main_v16 Cert.ReferenceIdeal.Read.val_main_v15
    Cert.ReferenceIdeal.Read.val_main_v13 Cert.ReferenceIdeal.Read.val_main_v14 Cert.ReferenceIdeal.Read.val_main_v10
    Cert.ReferenceIdeal.Read.val_main_v12 Cert.ReferenceIdeal.Read.val_main_v11 Cert.ReferenceIdeal.Read.val_main_v9
    Cert.ReferenceIdeal.Read.val_main_v8 Cert.ReferenceIdeal.Read.val_main_v7 Cert.ReferenceIdeal.Read.val_main_v6
    Cert.ReferenceIdeal.Read.val_main_c Cert.ReferenceIdeal.Read.val_main_c_0 Cert.ReferenceIdeal.Read.val_main_c_1
  rfl

/-- Every gathered bias entry is an entry of the table. -/
theorem bias_real (x4 : (⟨Cert.KernelIdeal.S2048x1, .f32⟩ : BufTy).Contents (Elt Ideal))
    (x5 : (⟨Cert.KernelIdeal.S2048x2048, .i32⟩ : BufTy).Contents (Elt Ideal)) (h4 : ∀ i, IsReal (x4 i : EReal)) :
    ∀ j, IsReal (Cert.KernelIdeal.Hand.biasK x4 x5 j : EReal) := by
  unfold Cert.KernelIdeal.Hand.biasK
  exact isReal_gather _ x4 _ h4

theorem algebraic : Cert.algebraic_KernelIdeal_ReferenceIdeal := by
  intro m ρ m' ρ' hpre hagree
  refine ⟨fun c => Cert.KernelIdeal.Hand.W4 m ρ c (Proc.devRef .tc Cert.KernelIdeal.main_v18), Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v31_eq, h0, h1, h2, h3, h4, h5]
  show _ = Cert.KernelIdeal.Hand.W4 m ρ c (Proc.devRef .tc Cert.KernelIdeal.main_v18)
  rw [Cert.KernelIdeal.Hand.W4_main_v18]
  obtain ⟨r0, r1, r2, r3, r4⟩ := Cert.Hand.Finite.real_of_pre _ _ _ _ _ _ (hpre c)
  funext i
  obtain ⟨b, r, o, rfl⟩ : ∃ (b : Fin 8) (r : Fin 2048) (o : Fin 1024), i = ix3 b r o := ⟨i 0, i 1, i 2, eq_ix3 i⟩
  have hr : r = (⟨512 * (⟨r.val / 512, by omega⟩ : Fin 4).val + (⟨r.val % 512, by omega⟩ : Fin 512).val, by omega⟩ : Fin 2048) :=
    Fin.ext (by show r.val = 512 * (r.val / 512) + r.val % 512; omega)
  rw [Cert.ReferenceIdeal.RefValue.ref_apply, hr, Cert.KernelIdeal.Hand.kernel_apply m ρ c ⟨r.val / 512, by omega⟩ b ⟨r.val % 512, by omega⟩ o,
    Spec.outK_eq_outR r0 r1 r2 r3 (bias_real _ _ r4), ← bias_same]

end Cert.Proof.Parts

end
-- ==== Proof.lean ====
/-
  The certificate: the witnesses of the programs' stated side conditions, then the five claims of Proof/Final.lean —
  the three frames, the (empty) idealization ledger, and the equivalence of the idealized kernel and reference over the
  extended reals.
-/
import proofs.«406253_j51496657879663_3_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, Parts.preserves, Parts.algebraic⟩

end Cert.Proof

end
